-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x224x224 : Shape := ⟨4, ![16, 3, 224, 224]⟩
abbrev S64x135 : Shape := ⟨2, ![64, 135]⟩
abbrev S_ : Shape := ⟨0, ![]⟩

class Facts : Prop where
  bcast_S_S16x3x224x224 : S_.BroadcastsInDim S16x3x224x224 (![] : Fin 0 → Fin S16x3x224x224.rank)
  reducesTo_S16x3x224x224_S_d0_1_2_3 : S16x3x224x224.ReducesTo [0, 1, 2, 3] S_
  h_S_ : 0 < S_.numel
  bcast_S_S64x135 : S_.BroadcastsInDim S64x135 (![] : Fin 0 → Fin S64x135.rank)
  reducesTo_S64x135_S_d0_1 : S64x135.ReducesTo [0, 1] S_

variable [Facts]

def fn {F : FTy → Type} [FloatOps F] (main_arg0 : FVec F S16x3x224x224 .f32) (main_arg1 : FVec F S64x135 .f32) : IVec S_ 1 :=
  let main_v0 : FVec F S16x3x224x224 .f32 := Host.absf main_arg0
  let main_cst : FVec F S_ .f32 := constant S_ .f32 0x7F800000#32
  let main_v1 : FVec F S16x3x224x224 .f32 := broadcastInDim S16x3x224x224 ![] bcast_S_S16x3x224x224 main_cst
  let main_v2 : IVec S16x3x224x224 1 := cmpf .olt main_v0 main_v1
  let main_c : IVec S_ 1 := constantI S_ 1 1#1
  let main_v3 : IVec S_ 1 := (fun x v => Host.reduce IntOp.andi x v reducesTo_S16x3x224x224_S_d0_1_2_3 h_S_) main_v2 main_c
  let main_v4 : FVec F S64x135 .f32 := Host.absf main_arg1
  let main_cst_0 : FVec F S_ .f32 := constant S_ .f32 0x7F800000#32
  let main_v5 : FVec F S64x135 .f32 := broadcastInDim S64x135 ![] bcast_S_S64x135 main_cst_0
  let main_v6 : IVec S64x135 1 := cmpf .olt main_v4 main_v5
  let main_c_1 : IVec S_ 1 := constantI S_ 1 1#1
  let main_v7 : IVec S_ 1 := (fun x v => Host.reduce IntOp.andi x v reducesTo_S64x135_S_d0_1 h_S_) main_v6 main_c_1
  let main_v8 : IVec S_ 1 := andi main_v3 main_v7
  main_v8
-- ==== Kernel.lean ====
abbrev S16x3x224x224 : Shape := ⟨4, ![16, 3, 224, 224]⟩
abbrev S64x135 : Shape := ⟨2, ![64, 135]⟩
abbrev S_ : Shape := ⟨0, ![]⟩
abbrev S16x3x226x224 : Shape := ⟨4, ![16, 3, 226, 224]⟩
abbrev S16x64x224x222 : Shape := ⟨4, ![16, 64, 224, 222]⟩
abbrev S1x3x226x224 : Shape := ⟨4, ![1, 3, 226, 224]⟩
abbrev S1x64x32x222 : Shape := ⟨4, ![1, 64, 32, 222]⟩
abbrev S1x3x34x224 : Shape := ⟨4, ![1, 3, 34, 224]⟩
abbrev S3x34x224 : Shape := ⟨3, ![3, 34, 224]⟩
abbrev S3x32x222 : Shape := ⟨3, ![3, 32, 222]⟩
abbrev S3x7104 : Shape := ⟨2, ![3, 7104]⟩
abbrev S1x7104 : Shape := ⟨2, ![1, 7104]⟩
abbrev S7104 : Shape := ⟨1, ![7104]⟩
abbrev S135x7104 : Shape := ⟨2, ![135, 7104]⟩
abbrev S64x7104 : Shape := ⟨2, ![64, 7104]⟩
abbrev S64x32x222 : Shape := ⟨3, ![64, 32, 222]⟩
abbrev S16x64x222x222 : Shape := ⟨4, ![16, 64, 222, 222]⟩

abbrev nBuf : Space → Nat
  | .hbm => 7
  | .vmem => 5
  | .smem => 0
  | _ => 0

abbrev bufTy : (tb : Table) → Fin (tcTables nBuf tb) → BufTy
  | .hbm, ⟨0, _⟩ => ⟨S16x3x224x224, .f32⟩
  | .hbm, ⟨1, _⟩ => ⟨S64x135, .f32⟩
  | .hbm, ⟨2, _⟩ => ⟨S_, .i32⟩
  | .hbm, ⟨3, _⟩ => ⟨S_, .f32⟩
  | .hbm, ⟨4, _⟩ => ⟨S16x3x226x224, .f32⟩
  | .hbm, ⟨5, _⟩ => ⟨S16x64x224x222, .f32⟩
  | .hbm, ⟨6, _⟩ => ⟨S16x64x222x222, .f32⟩
  | .local _ .vmem, ⟨0, _⟩ => ⟨S1x3x226x224, .f32⟩
  | .local _ .vmem, ⟨1, _⟩ => ⟨S1x3x226x224, .f32⟩
  | .local _ .vmem, ⟨2, _⟩ => ⟨S64x135, .f32⟩
  | .local _ .vmem, ⟨3, _⟩ => ⟨S1x64x32x222, .f32⟩
  | .local _ .vmem, ⟨4, _⟩ => ⟨S1x64x32x222, .f32⟩
  | _, _ => ⟨S16x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 7], ![false, false]⟩

def k0_mult1 (i : grid0.Coords) : BitVec 32 :=
  let arg1 : BitVec 32 := BitVec.ofNat 32 (i 1).val
  let c32_i32 : BitVec 32 := 32#32
  let v0 : BitVec 32 := Scalar.muli arg1 c32_i32
  v0
def k0_off1 (i : grid0.Coords) : Fin 4 → Nat :=
  let c0 : Index := 0#32
  let c0_0 : Index := 0#32
  let arg1 : BitVec 32 := BitVec.ofNat 32 (i 1).val
  let c32_i32 : BitVec 32 := 32#32
  let v0 : BitVec 32 := Scalar.muli arg1 c32_i32
  let v1 : BitVec 32 := v0
  let v2 : Index := Scalar.indexCast v1
  let c0_1 : Index := 0#32
  ![0, 0, v2.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x226x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x135 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x32x222 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S16x3x224x224_S16x3x226x224_000_000_020_000 : S16x3x224x224.Pads (![0, 0, 0, 0] : Fin 4 → Nat) ![0, 0, 2, 0] ![0, 0, 0, 0] S16x3x226x224
  h_S_ : 0 < S_.numel
  h_S1x3x34x224 : 0 < S1x3x34x224.numel
  shapeCasts_S1x3x34x224_S3x34x224 : S1x3x34x224.ShapeCasts S3x34x224
  slices_S3x34x224_o0_0_0_S3x32x222 : S3x34x224.Slices ![0, 0, 0] S3x32x222
  shapeCasts_S3x32x222_S3x7104 : S3x32x222.ShapeCasts S3x7104
  slices_S3x34x224_o0_0_1_S3x32x222 : S3x34x224.Slices ![0, 0, 1] S3x32x222
  slices_S3x34x224_o0_0_2_S3x32x222 : S3x34x224.Slices ![0, 0, 2] S3x32x222
  slices_S3x34x224_o0_1_0_S3x32x222 : S3x34x224.Slices ![0, 1, 0] S3x32x222
  slices_S3x34x224_o0_1_1_S3x32x222 : S3x34x224.Slices ![0, 1, 1] S3x32x222
  slices_S3x34x224_o0_1_2_S3x32x222 : S3x34x224.Slices ![0, 1, 2] S3x32x222
  slices_S3x34x224_o0_2_0_S3x32x222 : S3x34x224.Slices ![0, 2, 0] S3x32x222
  slices_S3x34x224_o0_2_1_S3x32x222 : S3x34x224.Slices ![0, 2, 1] S3x32x222
  slices_S3x34x224_o0_2_2_S3x32x222 : S3x34x224.Slices ![0, 2, 2] S3x32x222
  slices_S3x7104_o0_0_S1x7104 : S3x7104.Slices ![0, 0] S1x7104
  shapeCasts_S1x7104_S7104 : S1x7104.ShapeCasts S7104
  slices_S3x7104_o1_0_S1x7104 : S3x7104.Slices ![1, 0] S1x7104
  slices_S3x7104_o2_0_S1x7104 : S3x7104.Slices ![2, 0] S1x7104
  shapeCasts_S7104_S1x7104 : S7104.ShapeCasts S1x7104
  concatenates_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S1x7104_S135x7104_d0 : Shape.Concatenates (S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: S1x7104 :: []) S135x7104 0
  bitsLt_bf16_f32 : FTy.bits .bf16 < FTy.bits .f32
  inb_S64x135_S64x135_0_0 : ∀ a, (![0, 0] : Fin 2 → Nat) a + S64x135.size a ≤ S64x135.size a
  h_S64x135 : 0 < S64x135.numel
  shapeCasts_S64x7104_S64x32x222 : S64x7104.ShapeCasts S64x32x222
  inb_S1x64x32x222_S1x64x32x222_0_0_0_0 : ∀ a, (![0, 0, 0, 0] : Fin 4 → Nat) a + S1x64x32x222.size a ≤ S1x64x32x222.size a
  h_S1x64x32x222 : 0 < S1x64x32x222.numel
  shapeCasts_S1x64x32x222_S64x32x222 : S1x64x32x222.ShapeCasts S64x32x222
  shapeCasts_S64x32x222_S1x64x32x222 : S64x32x222.ShapeCasts S1x64x32x222
  slices_S16x64x224x222_S16x64x222x222_0_0_0_0 : S16x64x224x222.Slices ![0, 0, 0, 0] S16x64x222x222
  dot_S64x135_S135x7104_S64x7104_1_0_0_1_n_n_wf : DotDims.WF S64x135 S135x7104 S64x7104 [1] [0] [0] [1] [] []
  hrank0 : 0 < grid0.rank
  k0_mult1_dvd : ∀ i : grid0.Coords, 32 ∣ (k0_mult1 i).toNat
  k0_off1_inb : ∀ i : grid0.Coords, ∀ a, (k0_off1 i) a + S1x3x34x224.size a ≤ S1x3x226x224.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x226x224.size a ≤ S16x3x226x224.size a
  hwx0_0 : ∀ i : grid0.Coords, EltTy.bits .f32 = 32 ∨ (Rect.block (s := S16x3x226x224) S1x3x226x224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x135.size a ≤ S64x135.size a
  hwx0_1 : ∀ i : grid0.Coords, EltTy.bits .f32 = 32 ∨ (Rect.block (s := S64x135) S64x135.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x32x222.size a ≤ S16x64x224x222.size a
  hwx0_2 : ∀ i : grid0.Coords, EltTy.bits .f32 = 32 ∨ (Rect.block (s := S16x64x224x222) S1x64x32x222.size (cc0_transform_2 i) (hinb0_2 i)).WholeWords (EltTy.packing .f32)

variable [Facts₀]

def dot_S64x135_S135x7104_S64x7104_1_0_0_1_n_n : DotDims S64x135 S135x7104 S64x7104 where
  lhsContracting := [1]
  rhsContracting := [0]
  lhsNonContracting := [0]
  rhsNonContracting := [1]
  lhsBatch := []
  rhsBatch := []
  wf := dot_S64x135_S135x7104_S64x7104_1_0_0_1_n_n_wf

abbrev win0_0 : Pipeline.Window sig grid0 :=
  Pipeline.Window.ofSpec (Memref.whole main_v0) S1x3x226x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x135.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x32x222.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x224x224 : Shape := ⟨4, ![16, 3, 224, 224]⟩
abbrev S64x135 : Shape := ⟨2, ![64, 135]⟩
abbrev S45x2 : Shape := ⟨2, ![45, 2]⟩
abbrev S16x3x222x222 : Shape := ⟨4, ![16, 3, 222, 222]⟩
abbrev S16x3x1x222x222 : Shape := ⟨5, ![16, 3, 1, 222, 222]⟩
abbrev S16x3x9x222x222 : Shape := ⟨5, ![16, 3, 9, 222, 222]⟩
abbrev S16x222x222x3x9 : Shape := ⟨5, ![16, 222, 222, 3, 9]⟩
abbrev S16x49284x3x9 : Shape := ⟨4, ![16, 49284, 3, 9]⟩
abbrev S45x1 : Shape := ⟨2, ![45, 1]⟩
abbrev S45 : Shape := ⟨1, ![45]⟩
abbrev S_ : Shape := ⟨0, ![]⟩
abbrev S16x49284x3x45 : Shape := ⟨4, ![16, 49284, 3, 45]⟩
abbrev S16x49284x135 : Shape := ⟨3, ![16, 49284, 135]⟩
abbrev S64x16x49284 : Shape := ⟨3, ![64, 16, 49284]⟩
abbrev S16x64x49284 : Shape := ⟨3, ![16, 64, 49284]⟩
abbrev S16x64x222x222 : Shape := ⟨4, ![16, 64, 222, 222]⟩

abbrev nBuf : Space → Nat
  | .hbm => 51
  | .vmem => 0
  | .smem => 0
  | _ => 0

abbrev bufTy : (tb : Table) → Fin (tcTables nBuf tb) → BufTy
  | .hbm, ⟨0, _⟩ => ⟨S16x3x224x224, .f32⟩
  | .hbm, ⟨1, _⟩ => ⟨S64x135, .f32⟩
  | .hbm, ⟨2, _⟩ => ⟨S45x2, .i32⟩
  | .hbm, ⟨3, _⟩ => ⟨S16x3x222x222, .f32⟩
  | .hbm, ⟨4, _⟩ => ⟨S16x3x222x222, .f32⟩
  | .hbm, ⟨5, _⟩ => ⟨S16x3x222x222, .f32⟩
  | .hbm, ⟨6, _⟩ => ⟨S16x3x222x222, .f32⟩
  | .hbm, ⟨7, _⟩ => ⟨S16x3x222x222, .f32⟩
  | .hbm, ⟨8, _⟩ => ⟨S16x3x222x222, .f32⟩
  | .hbm, ⟨9, _⟩ => ⟨S16x3x222x222, .f32⟩
  | .hbm, ⟨10, _⟩ => ⟨S16x3x222x222, .f32⟩
  | .hbm, ⟨11, _⟩ => ⟨S16x3x222x222, .f32⟩
  | .hbm, ⟨12, _⟩ => ⟨S16x3x1x222x222, .f32⟩
  | .hbm, ⟨13, _⟩ => ⟨S16x3x1x222x222, .f32⟩
  | .hbm, ⟨14, _⟩ => ⟨S16x3x1x222x222, .f32⟩
  | .hbm, ⟨15, _⟩ => ⟨S16x3x1x222x222, .f32⟩
  | .hbm, ⟨16, _⟩ => ⟨S16x3x1x222x222, .f32⟩
  | .hbm, ⟨17, _⟩ => ⟨S16x3x1x222x222, .f32⟩
  | .hbm, ⟨18, _⟩ => ⟨S16x3x1x222x222, .f32⟩
  | .hbm, ⟨19, _⟩ => ⟨S16x3x1x222x222, .f32⟩
  | .hbm, ⟨20, _⟩ => ⟨S16x3x1x222x222, .f32⟩
  | .hbm, ⟨21, _⟩ => ⟨S16x3x9x222x222, .f32⟩
  | .hbm, ⟨22, _⟩ => ⟨S16x222x222x3x9, .f32⟩
  | .hbm, ⟨23, _⟩ => ⟨S16x49284x3x9, .f32⟩
  | .hbm, ⟨24, _⟩ => ⟨S45x1, .i32⟩
  | .hbm, ⟨25, _⟩ => ⟨S45, .i32⟩
  | .hbm, ⟨26, _⟩ => ⟨S_, .i32⟩
  | .hbm, ⟨27, _⟩ => ⟨S45, .i32⟩
  | .hbm, ⟨28, _⟩ => ⟨S45, .i1⟩
  | .hbm, ⟨29, _⟩ => ⟨S_, .i32⟩
  | .hbm, ⟨30, _⟩ => ⟨S45, .i32⟩
  | .hbm, ⟨31, _⟩ => ⟨S45, .i32⟩
  | .hbm, ⟨32, _⟩ => ⟨S45, .i32⟩
  | .hbm, ⟨33, _⟩ => ⟨S45x1, .i32⟩
  | .hbm, ⟨34, _⟩ => ⟨S16x49284x3x45, .f32⟩
  | .hbm, ⟨35, _⟩ => ⟨S45x1, .i32⟩
  | .hbm, ⟨36, _⟩ => ⟨S45, .i32⟩
  | .hbm, ⟨37, _⟩ => ⟨S_, .i32⟩
  | .hbm, ⟨38, _⟩ => ⟨S45, .i32⟩
  | .hbm, ⟨39, _⟩ => ⟨S45, .i1⟩
  | .hbm, ⟨40, _⟩ => ⟨S_, .i32⟩
  | .hbm, ⟨41, _⟩ => ⟨S45, .i32⟩
  | .hbm, ⟨42, _⟩ => ⟨S45, .i32⟩
  | .hbm, ⟨43, _⟩ => ⟨S45, .i32⟩
  | .hbm, ⟨44, _⟩ => ⟨S45x1, .i32⟩
  | .hbm, ⟨45, _⟩ => ⟨S16x49284x3x45, .f32⟩
  | .hbm, ⟨46, _⟩ => ⟨S16x49284x3x45, .f32⟩
  | .hbm, ⟨47, _⟩ => ⟨S16x49284x135, .f32⟩
  | .hbm, ⟨48, _⟩ => ⟨S64x16x49284, .f32⟩
  | .hbm, ⟨49, _⟩ => ⟨S16x64x49284, .f32⟩
  | .hbm, ⟨50, _⟩ => ⟨S16x64x222x222, .f32⟩
  | _, _ => ⟨S16x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_c_0 : Ref sig .tc := ⟨.hbm, 26, rfl⟩
abbrev main_v23 : Ref sig .tc := ⟨.hbm, 27, rfl⟩
abbrev main_v24 : Ref sig .tc := ⟨.hbm, 28, rfl⟩
abbrev main_c_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c_2 : Ref sig .tc := ⟨.hbm, 37, rfl⟩
abbrev main_v32 : Ref sig .tc := ⟨.hbm, 38, rfl⟩
abbrev main_v33 : Ref sig .tc := ⟨.hbm, 39, rfl⟩
abbrev main_c_3 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]

class Facts₀ : Prop where
  slices_S16x3x224x224_S16x3x222x222_0_0_0_0 : S16x3x224x224.Slices ![0, 0, 0, 0] S16x3x222x222
  slices_S16x3x224x224_S16x3x222x222_0_0_0_1 : S16x3x224x224.Slices ![0, 0, 0, 1] S16x3x222x222
  slices_S16x3x224x224_S16x3x222x222_0_0_0_2 : S16x3x224x224.Slices ![0, 0, 0, 2] S16x3x222x222
  slices_S16x3x224x224_S16x3x222x222_0_0_1_0 : S16x3x224x224.Slices ![0, 0, 1, 0] S16x3x222x222
  slices_S16x3x224x224_S16x3x222x222_0_0_1_1 : S16x3x224x224.Slices ![0, 0, 1, 1] S16x3x222x222
  slices_S16x3x224x224_S16x3x222x222_0_0_1_2 : S16x3x224x224.Slices ![0, 0, 1, 2] S16x3x222x222
  slices_S16x3x224x224_S16x3x222x222_0_0_2_0 : S16x3x224x224.Slices ![0, 0, 2, 0] S16x3x222x222
  slices_S16x3x224x224_S16x3x222x222_0_0_2_1 : S16x3x224x224.Slices ![0, 0, 2, 1] S16x3x222x222
  slices_S16x3x224x224_S16x3x222x222_0_0_2_2 : S16x3x224x224.Slices ![0, 0, 2, 2] S16x3x222x222
  bcast_S16x3x222x222_S16x3x1x222x222_0_1_3_4 : S16x3x222x222.BroadcastsInDim S16x3x1x222x222 (![0, 1, 3, 4] : Fin 4 → Fin S16x3x1x222x222.rank)
  concatenates_S16x3x1x222x222_S16x3x1x222x222_S16x3x1x222x222_S16x3x1x222x222_S16x3x1x222x222_S16x3x1x222x222_S16x3x1x222x222_S16x3x1x222x222_S16x3x1x222x222_S16x3x9x222x222_d2 : Shape.Concatenates [S16x3x1x222x222, S16x3x1x222x222, S16x3x1x222x222, S16x3x1x222x222, S16x3x1x222x222, S16x3x1x222x222, S16x3x1x222x222, S16x3x1x222x222, S16x3x1x222x222] S16x3x9x222x222 2
  transposes_S16x3x9x222x222_S16x222x222x3x9_0_3_4_1_2 : S16x3x9x222x222.Transposes [0, 3, 4, 1, 2] S16x222x222x3x9
  shapeCasts_S16x222x222x3x9_S16x49284x3x9 : S16x222x222x3x9.ShapeCasts S16x49284x3x9
  slices_S45x2_S45x1_0_0 : S45x2.Slices ![0, 0] S45x1
  shapeCasts_S45x1_S45 : S45x1.ShapeCasts S45
  bcast_S_S45 : S_.BroadcastsInDim S45 (![] : Fin 0 → Fin S45.rank)
  bcast_S45_S45x1_0 : S45.BroadcastsInDim S45x1 (![0] : Fin 1 → Fin S45x1.rank)
  slices_S45x2_S45x1_0_1 : S45x2.Slices ![0, 1] S45x1
  shapeCasts_S16x49284x3x45_S16x49284x135 : S16x49284x3x45.ShapeCasts S16x49284x135
  transposes_S64x16x49284_S16x64x49284_1_0_2 : S64x16x49284.Transposes [1, 0, 2] S16x64x49284
  shapeCasts_S16x64x49284_S16x64x222x222 : S16x64x49284.ShapeCasts S16x64x222x222
  gather_S16x49284x3x9_S45x1_S16x49284x3x45_012_3_n_n_3_1_164928431_wf : GatherDims.WF S16x49284x3x9 S45x1 S16x49284x3x45 [0, 1, 2] [3] [] [3] [] 1 ![16, 49284, 3, 1]
  dot_S64x135_S16x49284x135_S64x16x49284_1_2_0_01_n_n_wf : DotDims.WF S64x135 S16x49284x135 S64x16x49284 [1] [2] [0] [0, 1] [] []

variable [Facts₀]

def gather_S16x49284x3x9_S45x1_S16x49284x3x45_012_3_n_n_3_1_164928431 : GatherDims S16x49284x3x9 S45x1 S16x49284x3x45 where
  offsetDims := [0, 1, 2]
  collapsedSliceDims := [3]
  operandBatchingDims := []
  startIndicesBatchingDims := []
  startIndexMap := [3]
  indexVectorDim := 1
  sliceSizes := ![16, 49284, 3, 1]
  wf := gather_S16x49284x3x9_S45x1_S16x49284x3x45_012_3_n_n_3_1_164928431_wf
def dot_S64x135_S16x49284x135_S64x16x49284_1_2_0_01_n_n : DotDims S64x135 S16x49284x135 S64x16x49284 where
  lhsContracting := [1]
  rhsContracting := [2]
  lhsNonContracting := [0]
  rhsNonContracting := [0, 1]
  lhsBatch := []
  rhsBatch := []
  wf := dot_S64x135_S16x49284x135_S64x16x49284_1_2_0_01_n_n_wf

class Facts : Prop extends Facts₀ where

variable [Facts]
-- ==== Proof.Spec.lean ====
/-
  The mathematics both programs compute, stated once over the argument arrays.

  For an image batch x : [16, 3, 224, 224] and weights wt : [64, 135] the result at (b, o, h, w), h, w < 222, is

      ∑ f < 135,  wt[o, f] · ( x[b, c, h + ya, w + xa] · x[b, c, h + yb, w + xb] )

  where the feature f = 45·c + p names a channel c < 3 and the p-th unordered pair (ka ≤ kb) of the nine positions
  of a 3×3 window (pairs in lexicographic order), and position k sits at row offset k / 3 and column offset k % 3.
  Row and column never leave the image: h + 2 ≤ 223 and w + 2 ≤ 223.
-/
import Idealize.ShloMosaic.PureOps.Ideal
import Idealize.ShloMosaic.Lib.ValueIdx

noncomputable section

namespace Cert.Spec

open Idealize.ShloMosaic Idealize.ShloMosaic.ValueIdx

/-- The first member of the p-th pair of window positions (pairs (ka, kb), ka ≤ kb < 9, in lexicographic order). -/
def posA : Fin 45 → Fin 9 :=
  ![0, 0, 0, 0, 0, 0, 0, 0, 0, 1, 1, 1, 1, 1, 1, 1, 1, 2, 2, 2, 2, 2, 2, 2, 3, 3, 3, 3, 3, 3, 4, 4, 4, 4, 4, 5, 5, 5, 5,
    6, 6, 6, 7, 7, 8]

/-- The second member of the p-th pair. -/
def posB : Fin 45 → Fin 9 :=
  ![0, 1, 2, 3, 4, 5, 6, 7, 8, 1, 2, 3, 4, 5, 6, 7, 8, 2, 3, 4, 5, 6, 7, 8, 3, 4, 5, 6, 7, 8, 4, 5, 6, 7, 8, 5, 6, 7, 8,
    6, 7, 8, 7, 8, 8]

/-- The channel of feature f. -/
def chan (f : Fin 135) : Fin 3 := ⟨f.val / 45, by have := f.isLt; omega⟩

/-- The pair of feature f. -/
def pair (f : Fin 135) : Fin 45 := ⟨f.val % 45, Nat.mod_lt _ (by decide)⟩

/-- The image read under window position k at output pixel (h, w): x[b, c, h + k / 3, w + k % 3]. -/
def patch (x : (⟨4, ![16, 3, 224, 224]⟩ : Shape).Idx → EReal) (b : Fin 16) (c : Fin 3) (k : Fin 9) (h w : Fin 222) : EReal :=
  x (ix4 b c (⟨h.val + k.val / 3, by have := h.isLt; have := k.isLt; omega⟩ : Fin 224)
    (⟨w.val + k.val % 3, by have := w.isLt; have := k.isLt; omega⟩ : Fin 224))

/-- Feature f at output pixel (h, w) of image b: the product of the two window positions of f's pair, in f's channel. -/
def feat (x : (⟨4, ![16, 3, 224, 224]⟩ : Shape).Idx → EReal) (b : Fin 16) (f : Fin 135) (h w : Fin 222) : EReal :=
  patch x b (chan f) (posA (pair f)) h w * patch x b (chan f) (posB (pair f)) h w

/-- The result at explicit coordinates. -/
def outAt (x : (⟨4, ![16, 3, 224, 224]⟩ : Shape).Idx → EReal) (wt : (⟨2, ![64, 135]⟩ : Shape).Idx → EReal)
    (b : Fin 16) (o : Fin 64) (h w : Fin 222) : EReal :=
  ∑ f : Fin 135, wt (ix2 o f) * feat x b f h w

/-- The whole result array. -/
def G (x : (⟨4, ![16, 3, 224, 224]⟩ : Shape).Idx → EReal) (wt : (⟨2, ![64, 135]⟩ : Shape).Idx → EReal) :
    (⟨4, ![16, 64, 222, 222]⟩ : Shape).Idx → EReal :=
  fun i => outAt x wt (i 0) (i 1) (i 2) (i 3)

theorem G_ix (x : (⟨4, ![16, 3, 224, 224]⟩ : Shape).Idx → EReal) (wt : (⟨2, ![64, 135]⟩ : Shape).Idx → EReal)
    (b : Fin 16) (o : Fin 64) (h w : Fin 222) : G x wt (ix4 b o h w) = outAt x wt b o h w := rfl

/-- The same sum read off ONE image's zero-padded plane stack xb : [1, 3, 226, 224] at the rows row0 .. row0 + 33: what a
    tile of 32 output rows starting at row row0 computes at its local row r. -/
def blockAt (xb : (⟨4, ![1, 3, 226, 224]⟩ : Shape).Idx → EReal) (wt : (⟨2, ![64, 135]⟩ : Shape).Idx → EReal)
    (ht : Fin 7) (o : Fin 64) (r : Fin 32) (w : Fin 222) : EReal :=
  ∑ f : Fin 135, wt (ix2 o f) *
    (xb (ix4 (0 : Fin 1) (chan f)
        (⟨32 * ht.val + r.val + (posA (pair f)).val / 3, by have := ht.isLt; have := r.isLt; have := (posA (pair f)).isLt; omega⟩ : Fin 226)
        (⟨w.val + (posA (pair f)).val % 3, by have := w.isLt; omega⟩ : Fin 224))
      * xb (ix4 (0 : Fin 1) (chan f)
        (⟨32 * ht.val + r.val + (posB (pair f)).val / 3, by have := ht.isLt; have := r.isLt; have := (posB (pair f)).isLt; omega⟩ : Fin 226)
        (⟨w.val + (posB (pair f)).val % 3, by have := w.isLt; omega⟩ : Fin 224)))

end Cert.Spec

end
-- ==== Proof.KernelOps.lean ====
/-
  The kernel body's operations read at an index, at the ideal instance: a shifted window of the loaded row band flattened
  to one row per channel; one feature row as the product of two such rows; and the product with the weights, laid out as
  the output tile.
-/
import proofs.«127827_j56427280335471_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KerSide

open Cert.KernelIdeal Cert.KernelIdeal.Gen Idealize.ShloMosaic Idealize.ShloMosaic.ValueIdx Idealize.SL.Sem

/-- The window of the band xw : [1, 3, 34, 224] shifted by (dy, dx), 32 rows by 222 columns, flattened row-major: at
    channel c and flat position l it is the band at row l / 222 + dy, column l % 222 + dx. -/
theorem window_apply (xw : Vec Ideal S1x3x34x224 .f32) (dy dx : ℕ) (hdy : dy ≤ 2) (hdx : dx ≤ 2)
    (h1 : S1x3x34x224.ShapeCasts S3x34x224) (h2 : S3x34x224.Slices ![0, dy, dx] S3x32x222) (h3 : S3x32x222.ShapeCasts S3x7104)
    (c : Fin 3) (l : Fin 7104) :
    shapeCast S3x7104 (extractStridedSlice S3x32x222 ![0, dy, dx] (shapeCast S3x34x224 xw h1) h2) h3 (ix2 c l)
      = xw (ix4 (0 : Fin 1) c (⟨l.val / 222 + dy, by have := l.isLt; omega⟩ : Fin 34) (⟨l.val % 222 + dx, by have := Nat.mod_lt l.val (by decide : 0 < 222); omega⟩ : Fin 224)) := by
  have hl := l.isLt
  have hc := c.isLt
  have hdm := Nat.div_add_mod l.val 222
  have hm := Nat.mod_lt l.val (by decide : 0 < 222)
  refine (shapeCast_apply _ h3 (ix2 c l) (ix3 c (⟨l.val / 222, by omega⟩ : Fin 32) (⟨l.val % 222, hm⟩ : Fin 222)) ?_).trans ?_
  · rw [Shape.rowMajor_val_three, Shape.rowMajor_val_two]
    show (c.val * 32 + l.val / 222) * 222 + l.val % 222 = c.val * 7104 + l.val
    omega
  refine (extractStridedSlice_apply _ _ h2 _ (ix3 c (⟨l.val / 222 + dy, by omega⟩ : Fin 34) (⟨l.val % 222 + dx, by omega⟩ : Fin 224)) ?_).trans ?_
  · intro a
    match a with
    | ⟨0, _⟩ => show c.val = 0 + c.val; omega
    | ⟨1, _⟩ => show l.val / 222 + dy = dy + l.val / 222; omega
    | ⟨2, _⟩ => show l.val % 222 + dx = dx + l.val % 222; omega
  refine shapeCast_apply _ h1 _ _ ?_
  rw [Shape.rowMajor_val_four, Shape.rowMajor_val_three]
  show (((0 : ℕ) * 3 + c.val) * 34 + (l.val / 222 + dy)) * 224 + (l.val % 222 + dx) = (c.val * 34 + (l.val / 222 + dy)) * 224 + (l.val % 222 + dx)
  omega

/-- Row c of a [3, 7104] matrix, taken as a one-row slice and flattened: at position l it is the matrix at (c, l). -/
private theorem slice_row_apply (A : FVec Ideal S3x7104 .f32) (c : ℕ) (hc : c < 3)
    (hA : S3x7104.Slices ![c, 0] S1x7104) (hs1 : S1x7104.ShapeCasts S7104) (l : Fin 7104) :
    shapeCast S7104 (extractStridedSlice S1x7104 ![c, 0] A hA) hs1 (ix1 l) = A (ix2 (⟨c, hc⟩ : Fin 3) l) := by
  refine (shapeCast_apply _ hs1 (ix1 l) (ix2 (0 : Fin 1) l) ?_).trans ?_
  · rw [Shape.rowMajor_val_two, Shape.rowMajor_val_one]
    show (0 : ℕ) * 7104 + l.val = l.val
    omega
  refine extractStridedSlice_apply _ A hA _ (ix2 (⟨c, hc⟩ : Fin 3) l) ?_
  intro a
  match a with
  | ⟨0, _⟩ => show c = c + 0; omega
  | ⟨1, _⟩ => show l.val = 0 + l.val; omega

/-- A feature row: row c of A times row c of B, as a one-row matrix. -/
theorem row_apply (A B : FVec Ideal S3x7104 .f32) (c : ℕ) (hc : c < 3)
    (hA hB : S3x7104.Slices ![c, 0] S1x7104) (hs1 hs2 : S1x7104.ShapeCasts S7104) (hs3 : S7104.ShapeCasts S1x7104) (l : Fin 7104) :
    shapeCast S1x7104 (mulf (shapeCast S7104 (extractStridedSlice S1x7104 ![c, 0] A hA) hs1)
        (shapeCast S7104 (extractStridedSlice S1x7104 ![c, 0] B hB) hs2)) hs3 (ix2 (0 : Fin 1) l)
      = A (ix2 (⟨c, hc⟩ : Fin 3) l) * B (ix2 (⟨c, hc⟩ : Fin 3) l) := by
  refine (shapeCast_apply _ hs3 (ix2 (0 : Fin 1) l) (ix1 l) ?_).trans ?_
  · rw [Shape.rowMajor_val_one, Shape.rowMajor_val_two]
    show l.val = (0 : ℕ) * 7104 + l.val
    omega
  rw [mulf_apply, slice_row_apply A c hc hA hs1 l, slice_row_apply B c hc hB hs2 l]

/-- The left operand's row coordinate is the output's row. -/
private theorem lhs_axis_0 (i : S64x7104.Idx) (q : dot_S64x135_S135x7104_S64x7104_1_0_0_1_n_n.contr.Idx) :
    (dot_S64x135_S135x7104_S64x7104_1_0_0_1_n_n.lhsIdx i q 0).val = (i 0).val := by
  unfold DotDims.lhsIdx
  rw [dif_neg (show ¬(0 : Fin S64x135.rank) ∈ dot_S64x135_S135x7104_S64x7104_1_0_0_1_n_n.lhsBatch by decide),
    dif_pos (show (0 : Fin S64x135.rank) ∈ dot_S64x135_S135x7104_S64x7104_1_0_0_1_n_n.lhsNonContracting by decide)]
  rfl

/-- The left operand's column coordinate is the contraction position. -/
private theorem lhs_axis_1 (i : S64x7104.Idx) (q : dot_S64x135_S135x7104_S64x7104_1_0_0_1_n_n.contr.Idx) :
    (dot_S64x135_S135x7104_S64x7104_1_0_0_1_n_n.lhsIdx i q 1).val = (q ⟨0, by decide⟩).val :=
  dot_S64x135_S135x7104_S64x7104_1_0_0_1_n_n.lhsIdx_val_of_single rfl i q

/-- The right operand's row coordinate is the contraction position. -/
private theorem rhs_axis_0 (i : S64x7104.Idx) (q : dot_S64x135_S135x7104_S64x7104_1_0_0_1_n_n.contr.Idx) :
    (dot_S64x135_S135x7104_S64x7104_1_0_0_1_n_n.rhsIdx i q 0).val = (q ⟨0, by decide⟩).val :=
  dot_S64x135_S135x7104_S64x7104_1_0_0_1_n_n.rhsIdx_val_of_single rfl i q

/-- The right operand's column coordinate is the output's column. -/
private theorem rhs_axis_1 (i : S64x7104.Idx) (q : dot_S64x135_S135x7104_S64x7104_1_0_0_1_n_n.contr.Idx) :
    (dot_S64x135_S135x7104_S64x7104_1_0_0_1_n_n.rhsIdx i q 1).val = (i 1).val := by
  unfold DotDims.rhsIdx
  rw [dif_neg (show ¬(1 : Fin S135x7104.rank) ∈ dot_S64x135_S135x7104_S64x7104_1_0_0_1_n_n.rhsBatch by decide),
    dif_pos (show (1 : Fin S135x7104.rank) ∈ dot_S64x135_S135x7104_S64x7104_1_0_0_1_n_n.rhsNonContracting by decide)]
  rfl

/-- The stored tile: the weights times the feature matrix D, the flat position r · 222 + w unfolded to (r, w). -/
theorem tile_apply (D : FVec Ideal S135x7104 .f32) (wb : Vec Ideal S64x135 .f32) (o : Fin 64) (r : Fin 32) (w : Fin 222) :
    k0_pay1 (F := Ideal) D wb (ix4 (0 : Fin 1) o r w)
      = ∑ f : Fin 135, wb (ix2 o f) * D (ix2 f (⟨r.val * 222 + w.val, by have := r.isLt; have := w.isLt; omega⟩ : Fin 7104)) := by
  have hr := r.isLt
  have hw := w.isLt
  have ho := o.isLt
  unfold k0_pay1
  refine (shapeCast_apply _ shapeCasts_S64x32x222_S1x64x32x222 (ix4 (0 : Fin 1) o r w) (ix3 o r w) ?_).trans ?_
  · rw [Shape.rowMajor_val_three, Shape.rowMajor_val_four]
    show (o.val * 32 + r.val) * 222 + w.val = ((((0 : ℕ) * 64 + o.val) * 32 + r.val) * 222 + w.val)
    omega
  refine (shapeCast_apply _ shapeCasts_S64x7104_S64x32x222 (ix3 o r w)
    (ix2 o (⟨r.val * 222 + w.val, by omega⟩ : Fin 7104)) ?_).trans ?_
  · rw [Shape.rowMajor_val_two, Shape.rowMajor_val_three]
    show o.val * 7104 + (r.val * 222 + w.val) = (o.val * 32 + r.val) * 222 + w.val
    omega
  simp only [matmul]
  rw [Ideal.matmul_constant_zero_apply, ← Equiv.sum_comp (contrEquiv1 dot_S64x135_S135x7104_S64x7104_1_0_0_1_n_n 135 rfl rfl).symm]
  refine Finset.sum_congr rfl fun k _ => ?_
  have hk := contrEquiv1_symm_val dot_S64x135_S135x7104_S64x7104_1_0_0_1_n_n 135 rfl rfl k
  have el : dot_S64x135_S135x7104_S64x7104_1_0_0_1_n_n.lhsIdx (ix2 o (⟨r.val * 222 + w.val, by omega⟩ : Fin 7104))
      ((contrEquiv1 dot_S64x135_S135x7104_S64x7104_1_0_0_1_n_n 135 rfl rfl).symm k) = ix2 o k := funext fun a => Fin.ext (by
    match a with
    | ⟨0, _⟩ => exact lhs_axis_0 _ _
    | ⟨1, _⟩ => exact (lhs_axis_1 _ _).trans hk)
  have er : dot_S64x135_S135x7104_S64x7104_1_0_0_1_n_n.rhsIdx (ix2 o (⟨r.val * 222 + w.val, by omega⟩ : Fin 7104))
      ((contrEquiv1 dot_S64x135_S135x7104_S64x7104_1_0_0_1_n_n 135 rfl rfl).symm k) = ix2 k (⟨r.val * 222 + w.val, by omega⟩ : Fin 7104) := funext fun a => Fin.ext (by
    match a with
    | ⟨0, _⟩ => exact (rhs_axis_0 _ _).trans hk
    | ⟨1, _⟩ => exact rhs_axis_1 _ _)
  rw [el, er]
  rfl

end Cert.KerSide

end
-- ==== Proof.KernelBody.lean ====
/-
  What one grid point of the kernel leaves in its output tile, index by index.

  The body loads a band of 34 rows of the padded image (rows 32·ht .. 32·ht + 33 for row tile ht), cuts from it the nine
  shifted 32×222 windows of a 3×3 stencil and flattens each to one row per channel, forms the 135 feature rows (channel c,
  pair p: the product of two of the nine rows of channel c), stacks them into a [135, 7104] matrix, and stores the weights
  times that matrix as the [64, 32, 222] tile. Read at (o, r, w) this is the specification's per-tile sum: the flat position
  r·222 + w of a window row is row r, column w of the window, and the window at position k is the band shifted by
  (k / 3, k % 3).
-/
import proofs.«127827_j56427280335471_1_alg».proof.Proof.Gen.KernelIdeal.Frame
import proofs.«127827_j56427280335471_1_alg».proof.Proof.Spec
import proofs.«127827_j56427280335471_1_alg».proof.Proof.KernelOps

set_option maxRecDepth 16384

noncomputable section
namespace Cert.KerSide
open Cert.KernelIdeal Cert.KernelIdeal.Gen Idealize.ShloMosaic Idealize.ShloMosaic.ValueIdx Idealize.SL.Sem

/-- The zero offsets of a whole-buffer access, however they are spelt. -/
theorem hz4 : (![0, 0, 0, 0] : Fin 4 → Nat) = fun _ => 0 := funext fun a => by fin_cases a <;> rfl
theorem hz2 : (![0, 0] : Fin 2 → Nat) = fun _ => 0 := funext fun a => by fin_cases a <;> rfl

/-- Row K of a stack of 135 one-row matrices is the K-th of them: every piece before it has one row, so K rows precede it. -/
theorem concat_row {α : Type} {xs : List ((s : Shape) × (s.Idx → α))} (h : Shape.Concatenates (xs.map (·.1)) S135x7104 0)
    (hss : xs.map (·.1) = List.replicate 135 S1x7104)
    (K : ℕ) (hK : K < 135) (l : Fin 7104) (x₁ : S1x7104.Idx → α)
    (hxk : xs[K]? = some ⟨S1x7104, x₁⟩) :
    concatenate S135x7104 0 xs h (ix2 (⟨K, hK⟩ : Fin 135) l) = x₁ (ix2 (0 : Fin 1) l) := by
  obtain ⟨hk, hxk'⟩ := List.getElem?_eq_some_iff.mp hxk
  have hpre : (((xs.take K).map (·.1)).map fun s => if h : s.rank = S135x7104.rank then s.size ((0 : Fin S135x7104.rank).cast h.symm) else 0).sum = K := by
    rw [List.map_take, hss, List.take_replicate, List.map_replicate, List.sum_replicate, Nat.min_eq_left (Nat.le_of_lt hK)]
    show K • 1 = K
    simp
  refine concatenate_apply_piece 0 xs h _ K hk S1x7104 x₁ hxk' rfl K hpre (ix2 0 l) (fun b hb => ?_) ?_
  · match b with
    | ⟨0, _⟩ => exact absurd rfl hb
    | ⟨1, _⟩ => rfl
  · show K + 0 = K
    rfl

/-- The loaded band: 34 rows of the padded plane stack starting at row 32·ht. -/
theorem band_apply (x0 : Vec Ideal S1x3x226x224 .f32) (i : grid0.Coords) (ht : Fin 7) (hi : (i 1).val = ht.val)
    (inb : ∀ a, (![0, 0, BitVec.toNat (Scalar.indexCast (Scalar.muli (BitVec.ofNat 32 (i 1).val) 32#32)), 0] : Fin 4 → ℕ) a + (![1, 3, 34, 224] : Fin 4 → ℕ) a ≤ S1x3x226x224.size a)
    (c : Fin 3) (y : Fin 34) (x' : Fin 224) :
    View.ld x0 (Rect.unit (s := S1x3x226x224) ![0, 0, BitVec.toNat (Scalar.indexCast (Scalar.muli (BitVec.ofNat 32 (i 1).val) 32#32)), 0] ![1, 3, 34, 224] inb)
        (ix4 (0 : Fin 1) c y x')
      = x0 (ix4 (0 : Fin 1) c (⟨32 * ht.val + y.val, by have := ht.isLt; have := y.isLt; omega⟩ : Fin 226) x') := by
  have hoff : BitVec.toNat (Scalar.indexCast (Scalar.muli (BitVec.ofNat 32 (i 1).val) 32#32)) = 32 * ht.val := by
    have := ht.isLt
    rw [hi]
    simp only [Scalar.indexCast, Scalar.muli, IntOp.muli, BitVec.toNat_mul, BitVec.toNat_ofNat]
    omega
  show x0 _ = x0 _
  congr 1
  funext a
  apply Fin.ext
  match a with
  | ⟨0, _⟩ => rfl
  | ⟨1, _⟩ => show 0 + 1 * c.val = c.val; omega
  | ⟨2, _⟩ => show BitVec.toNat _ + 1 * y.val = 32 * ht.val + y.val; rw [hoff]; omega
  | ⟨3, _⟩ => show 0 + 1 * x'.val = x'.val; omega

/-- Row c of a three-row matrix can be sliced out. -/
theorem slices_row (c : ℕ) (hc : c < 3) : S3x7104.Slices ![c, 0] S1x7104 := by
  interval_cases c <;> decide

/-- A 32×222 window at row offset dy ≤ 2 and column offset dx ≤ 2 fits in the 34×224 band. -/
theorem slices_win (dy dx : ℕ) (hdy : dy ≤ 2) (hdx : dx ≤ 2) : S3x34x224.Slices ![0, dy, dx] S3x32x222 := by
  interval_cases dy <;> interval_cases dx <;> decide

/-- A feature row read at a position, with the body's own side conditions. -/
theorem row_at (A B : FVec Ideal S3x7104 .f32) (c : ℕ) (hc : c < 3) (l : Fin 7104) :
    shapeCast S1x7104 (mulf (shapeCast S7104 (extractStridedSlice S1x7104 ![c, 0] A (slices_row c hc)) shapeCasts_S1x7104_S7104)
        (shapeCast S7104 (extractStridedSlice S1x7104 ![c, 0] B (slices_row c hc)) shapeCasts_S1x7104_S7104)) shapeCasts_S7104_S1x7104 (ix2 (0 : Fin 1) l)
      = A (ix2 (⟨c, hc⟩ : Fin 3) l) * B (ix2 (⟨c, hc⟩ : Fin 3) l) :=
  row_apply A B c hc _ _ _ _ _ l

/-- A flattened shifted window read at a position, with the body's own side conditions. -/
theorem window_at (xw : Vec Ideal S1x3x34x224 .f32) (dy dx : ℕ) (hdy : dy ≤ 2) (hdx : dx ≤ 2) (c : Fin 3) (l : Fin 7104) :
    shapeCast S3x7104 (extractStridedSlice S3x32x222 ![0, dy, dx] (shapeCast S3x34x224 xw shapeCasts_S1x3x34x224_S3x34x224) (slices_win dy dx hdy hdx)) shapeCasts_S3x32x222_S3x7104 (ix2 c l)
      = xw (ix4 (0 : Fin 1) c (⟨l.val / 222 + dy, by have := l.isLt; omega⟩ : Fin 34) (⟨l.val % 222 + dx, by have := Nat.mod_lt l.val (by decide : 0 < 222); omega⟩ : Fin 224)) :=
  window_apply xw dy dx hdy hdx _ _ _ c l

/-- One feature row's entry under the band read: channel and window offsets matched with the pair table. -/
theorem band_feat (x0 : Vec Ideal S1x3x226x224 .f32) (i : grid0.Coords) (ht : Fin 7) (hi : (i 1).val = ht.val)
    (inb : ∀ a, (![0, 0, BitVec.toNat (Scalar.indexCast (Scalar.muli (BitVec.ofNat 32 (i 1).val) 32#32)), 0] : Fin 4 → ℕ) a + (![1, 3, 34, 224] : Fin 4 → ℕ) a ≤ S1x3x226x224.size a)
    (c c' : Fin 3) (k : Fin 9) (dy dx : ℕ) (r : Fin 32) (w : Fin 222) (hc : c = c') (hy : dy = k.val / 3) (hx : dx = k.val % 3)
    (h1 : (r.val * 222 + w.val) / 222 + dy < 34) (h2 : (r.val * 222 + w.val) % 222 + dx < 224) :
    View.ld x0 (Rect.unit (s := S1x3x226x224) ![0, 0, BitVec.toNat (Scalar.indexCast (Scalar.muli (BitVec.ofNat 32 (i 1).val) 32#32)), 0] ![1, 3, 34, 224] inb)
        (ix4 (0 : Fin 1) c (⟨(r.val * 222 + w.val) / 222 + dy, h1⟩ : Fin 34) (⟨(r.val * 222 + w.val) % 222 + dx, h2⟩ : Fin 224))
      = x0 (ix4 (0 : Fin 1) c'
          (⟨32 * ht.val + r.val + k.val / 3, by have := ht.isLt; have := r.isLt; have := k.isLt; omega⟩ : Fin 226)
          (⟨w.val + k.val % 3, by have := w.isLt; omega⟩ : Fin 224)) := by
  subst hc hy hx
  rw [band_apply x0 i ht hi inb]
  have hw := w.isLt
  have e1 : (r.val * 222 + w.val) / 222 = r.val := by omega
  have e2 : (r.val * 222 + w.val) % 222 = w.val := by omega
  congr 1
  funext a
  apply Fin.ext
  match a with
  | ⟨0, _⟩ => rfl
  | ⟨1, _⟩ => rfl
  | ⟨2, _⟩ => show 32 * ht.val + ((r.val * 222 + w.val) / 222 + k.val / 3) = 32 * ht.val + r.val + k.val / 3; rw [e1]; omega
  | ⟨3, _⟩ => show (r.val * 222 + w.val) % 222 + k.val % 3 = w.val + k.val % 3; rw [e2]

set_option maxHeartbeats 4000000 in
/-- At the grid point whose second coordinate is the row tile ht, from the image's padded plane stack x0 and the weights x1
    in the staging buffers, the body leaves at (0, o, r, w) of the output tile the weighted sum of the 135 pair products
    read at padded row 32·ht + r (plus the position's row offset) and column w (plus its column offset). The one store's
    payload is the weights times the stacked feature rows; row f of the stack is found by position, each of the 135 rows
    is the product of two window rows of one channel, and each window row is the band shifted by its position. -/
theorem body_value (c : Dev nD) (i : grid0.Coords) (ht : Fin 7) (hi : (i 1).val = ht.val)
    (arg2 : Memref sig .tc .vmem S1x3x226x224 .f32) (harg2 : arg2.IsWhole)
    (arg3 : Memref sig .tc .vmem S64x135 .f32) (harg3 : arg3.IsWhole)
    (arg4 : Memref sig .tc .vmem S1x64x32x222 .f32) (harg4 : arg4.IsWhole)
    (x0 : Vec Ideal S1x3x226x224 .f32) (x1 : Vec Ideal S64x135 .f32) (o : Fin 64) (r : Fin 32) (w : Fin 222) :
    out0_A_2 (F := Ideal) c i arg2 harg2 arg3 harg3 arg4 harg4 x0 x1 (ix4 (0 : Fin 1) o r w)
      = Cert.Spec.blockAt x0 x1 ht o r w := by
  unfold out0_A_2
  rw [View.read_writes_eq_canon _ _ _ (cover0_A_2 c i arg2 harg2 arg3 harg3 arg4 harg4 x0 x1)]
  unfold kernelRun0_A
  dsimp only
  sl_unfold_words
  rw [View.canon_unit_zero hz4]
  simp only [View.readAt_eq_ld, harg2.read_unread, harg3.read_unread, View.ld_unit_zero (S := S64x135) hz2]
  refine (tile_apply _ _ o r w).trans ?_
  unfold Cert.Spec.blockAt
  refine Finset.sum_congr rfl fun f _ => ?_
  refine congrArg (x1 (ix2 o f) * ·) ?_
  unfold k0_pay234
  fin_cases f
  all_goals
    refine Eq.trans (concat_row _ ?_ _ _ _ ?_ ?_) ?_
    · exact rfl
    rotate_left
    · exact rfl
    refine (row_at _ _ _ ?_ _).trans ?_
    · decide
    refine congrArg₂ (· * ·) ((window_at _ _ _ ?_ ?_ _ _).trans ?_) ((window_at _ _ _ ?_ ?_ _ _).trans ?_)
    · decide
    · decide
    · refine band_feat x0 i ht hi _ _ _ _ _ _ r w ?_ ?_ ?_ _ _ <;> decide
    · decide
    · decide
    · refine band_feat x0 i ht hi _ _ _ _ _ _ r w ?_ ?_ ?_ _ _ <;> decide

end Cert.KerSide
end
-- ==== Proof.KernelBlocks.lean ====
/-
  Where each staged block of the kernel lies in its array: the image block of a grid point is one image of the padded
  batch, the weight block is the whole weight matrix, and the padded batch is the argument batch on every row below 224.
-/
import proofs.«127827_j56427280335471_1_alg».proof.Proof.Gen.KernelIdeal.Frame
import Idealize.ShloMosaic.Lib.Pipeline.Value
import Idealize.ShloMosaic.Lib.KernelVsHost
import Idealize.ShloMosaic.Lib.StableHlo.Run
import Idealize.ShloMosaic.Lib.Tactic

noncomputable section

namespace Cert.KerSide

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The padded image batch [16, 3, 226, 224] as the kernel region finds it. -/
abbrev ximg (c : Dev nD) : S16x3x226x224.Idx → EReal := V m c main_v0
/-- The image block [1, 3, 226, 224] staged at grid point t. -/
abbrev xblk (c : Dev nD) (t : Fin cfg0.N) : S1x3x226x224.Idx → EReal := iblk m c 0 t
/-- The weight block [64, 135] staged at grid point t. -/
abbrev wblk (c : Dev nD) (t : Fin cfg0.N) : S64x135.Idx → EReal := iblk m c 1 t
/-- The argument image batch [16, 3, 224, 224] and the argument weights [64, 135], as launched. -/
abbrev xarg (c : Dev nD) : S16x3x224x224.Idx → EReal := m ((c : Thread nD τ).loc main_arg0)
abbrev warg (c : Dev nD) : S64x135.Idx → EReal := m ((c : Thread nD τ).loc main_arg1)

/-- The grid is 16 images by 7 row tiles, the row tile moving fastest: at point t the image is t / 7 and the row tile
    t % 7. The image window follows the image only, the weight window never moves, the output window follows both. -/
theorem idx_facts : ∀ t : Fin cfg0.N, win0_0.index t (0 : Fin 4) = t.val / 7 ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 4) = t.val / 7 ∧ win0_2.index t (1 : Fin 4) = 0
    ∧ win0_2.index t (2 : Fin 4) = t.val % 7 ∧ win0_2.index t (3 : Fin 4) = 0
    ∧ ((grid0.coords t) 1).val = t.val % 7 :=
  (by decide +kernel : ∀ t : Fin grid0.N, _)

/-- The image block of point t is image t / 7 of the padded batch. -/
theorem xblk_apply (c : Dev nD) (t : Fin cfg0.N) (b : Fin 16) (hb : b.val = t.val / 7) (ch : Fin 3) (y : Fin 226) (x : Fin 224) :
    xblk m c t (ix4 (0 : Fin 1) ch y x) = ximg m c (ix4 b ch y x) := by
  obtain ⟨e0, e1, e2, e3, -⟩ := idx_facts t
  unfold xblk iblk
  rw [View.read_apply]
  show V m c main_v0 _ = V m c main_v0 _
  congr 1
  funext a
  apply Fin.ext
  match a with
  | ⟨0, _⟩ => show win0_0.index t (0 : Fin 4) * 1 + 1 * 0 = b.val; omega
  | ⟨1, _⟩ => show win0_0.index t (1 : Fin 4) * 3 + 1 * ch.val = ch.val; omega
  | ⟨2, _⟩ => show win0_0.index t (2 : Fin 4) * 226 + 1 * y.val = y.val; omega
  | ⟨3, _⟩ => show win0_0.index t (3 : Fin 4) * 224 + 1 * x.val = x.val; omega

/-- The weight block of every point is the weight argument. -/
theorem wblk_apply (c : Dev nD) (t : Fin cfg0.N) (o : Fin 64) (f : Fin 135) :
    wblk m c t (ix2 o f) = warg m c (ix2 o f) := by
  obtain ⟨-, -, -, -, e0, e1, -⟩ := idx_facts t
  unfold wblk iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 64 + 1 * o.val = o.val; omega
  | ⟨1, _⟩ => show win0_1.index t (1 : Fin 2) * 135 + 1 * f.val = f.val; omega

/-- The padded batch is the argument batch with two rows of one padding value appended below each plane. -/
theorem ximg_eq (c : Dev nD) : ∃ v : S_.Idx → EReal, ximg m c = pad S16x3x226x224 ![0, 0, 0, 0] ![0, 0, 2, 0] ![0, 0, 0, 0]
    (xarg m c) v pads_S16x3x224x224_S16x3x226x224_000_000_020_000 h_S_ := by
  refine Exists.intro ?v ?h
  case h =>
    show V m c main_v0 = _
    dsimp only [V, V0]
    simp only [hostOps0, hostOps0_1, List.flatten_cons, List.flatten_nil, List.append_nil, List.cons_append, List.nil_append]
    after_results
    rfl

/-- On a row below 224 the padded batch is the argument batch. -/
theorem ximg_apply (c : Dev nD) (b : Fin 16) (ch : Fin 3) (y : Fin 226) (x : Fin 224) (y' : Fin 224) (hy : y.val = y'.val) :
    ximg m c (ix4 b ch y x) = xarg m c (ix4 b ch y' x) := by
  obtain ⟨v, e⟩ := ximg_eq m c
  rw [e]
  refine pad_apply_of_inside _ _ _ _ v _ _ (ix4 b ch y x) (ix4 b ch y' x) fun a => ?_
  match a with
  | ⟨0, _⟩ => show b.val = 0 + b.val * (0 + 1); omega
  | ⟨1, _⟩ => show ch.val = 0 + ch.val * (0 + 1); omega
  | ⟨2, _⟩ => show y.val = 0 + y'.val * (0 + 1); omega
  | ⟨3, _⟩ => show x.val = 0 + x.val * (0 + 1); omega

end Cert.KerSide

end
-- ==== Proof.KernelCover.lean ====
/-
  The output array after the kernel region: every grid point writes one tile of 32 output rows of one image, the 112
  tiles lie side by side and fill the array, so the array is one function of the padded batch and the weights.
-/
import proofs.«127827_j56427280335471_1_alg».proof.Proof.KernelBody
import proofs.«127827_j56427280335471_1_alg».proof.Proof.KernelBlocks

noncomputable section

namespace Cert.KerSide

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Entry (b, o, H, w) of the output array [16, 64, 224, 222]: the weighted sum of the 135 pair products read off the
    padded image b at row H and column w, each window position adding its row and column offset. -/
def outAt (c : Dev nD) (b : Fin 16) (o : Fin 64) (H : Fin 224) (w : Fin 222) : EReal :=
  ∑ f : Fin 135, warg m c (ix2 o f) *
    (ximg m c (ix4 b (Cert.Spec.chan f)
        (⟨H.val + (Cert.Spec.posA (Cert.Spec.pair f)).val / 3, by have := H.isLt; have := (Cert.Spec.posA (Cert.Spec.pair f)).isLt; omega⟩ : Fin 226)
        (⟨w.val + (Cert.Spec.posA (Cert.Spec.pair f)).val % 3, by have := w.isLt; omega⟩ : Fin 224))
      * ximg m c (ix4 b (Cert.Spec.chan f)
        (⟨H.val + (Cert.Spec.posB (Cert.Spec.pair f)).val / 3, by have := H.isLt; have := (Cert.Spec.posB (Cert.Spec.pair f)).isLt; omega⟩ : Fin 226)
        (⟨w.val + (Cert.Spec.posB (Cert.Spec.pair f)).val % 3, by have := w.isLt; omega⟩ : Fin 224)))

/-- The whole output array. -/
def outArr (c : Dev nD) : S16x64x224x222.Idx → EReal := fun i => outAt m c (i 0) (i 1) (i 2) (i 3)

/-- The tile of point t, row tile ht = t % 7 of image b = t / 7, holds at (0, o, r, w) entry (b, o, 32·ht + r, w). -/
theorem tile_at (c : Dev nD) (t : Fin cfg0.N) (ht : Fin 7) (hht : ht.val = t.val % 7) (b : Fin 16) (hb : b.val = t.val / 7)
    (o : Fin 64) (r : Fin 32) (w : Fin 222) :
    outsAt0 m c t (ix4 (0 : Fin 1) o r w)
      = outAt m c b o (⟨32 * ht.val + r.val, by have := ht.isLt; have := r.isLt; omega⟩ : Fin 224) w := by
  obtain ⟨-, -, -, -, -, -, -, -, -, -, ec⟩ := idx_facts t
  unfold outsAt0
  refine (body_value c (grid0.coords t) ht (by rw [ec, hht]) (ms0_0 t) (hs0_0 t) (ms0_1 t) (hs0_1 t) (ms0_2 t) (hs0_2 t)
    (xblk m c t) (wblk m c t) o r w).trans ?_
  unfold Cert.Spec.blockAt outAt
  refine Finset.sum_congr rfl fun f _ => ?_
  rw [wblk_apply m c t o f, xblk_apply m c t b hb, xblk_apply m c t b hb]

/-- The same over indices: the tile's entry j is the array's entry i when i is j moved to image t / 7 and down by
    32·(t % 7) rows. -/
theorem tile_eq (c : Dev nD) (t : Fin cfg0.N) (j : S1x64x32x222.Idx) (i : S16x64x224x222.Idx)
    (h0 : (i 0).val = t.val / 7) (h1 : (i 1).val = (j 1).val) (h2 : (i 2).val = 32 * (t.val % 7) + (j 2).val)
    (h3 : (i 3).val = (j 3).val) : outsAt0 m c t j = outArr m c i := by
  obtain ⟨z, o, r, w, rfl⟩ : ∃ (z : Fin 1) (o : Fin 64) (r : Fin 32) (w : Fin 222), j = ix4 z o r w :=
    ⟨j 0, j 1, j 2, j 3, eq_ix4 j⟩
  obtain ⟨b, o', H, w', rfl⟩ : ∃ (b : Fin 16) (o' : Fin 64) (H : Fin 224) (w' : Fin 222), i = ix4 b o' H w' :=
    ⟨i 0, i 1, i 2, i 3, eq_ix4 i⟩
  obtain rfl : z = 0 := Subsingleton.elim _ _
  obtain rfl : o = o' := (Fin.ext h1).symm
  obtain rfl : w = w' := (Fin.ext h3).symm
  refine (tile_at m c t (⟨t.val % 7, Nat.mod_lt _ (by decide)⟩ : Fin 7) rfl b h0 o r w).trans ?_
  show outAt m c b o _ w = outAt m c b o H w
  congr 1
  exact Fin.ext h2.symm

/-- What point t writes back is its block of the output array. -/
theorem flushed_eq (c : Dev nD) (t : Fin cfg0.N) :
    (dats m 0 c).flushed 2 t = ((cfg0.win 2).blk t).view.read (Elt Ideal) (outArr m c) := by
  show (cfg0.win 2).cut (grid0.coords t) ((dats m 0 c).after 2 t) = _
  rw [after0_2]
  obtain ⟨-, -, -, -, -, -, e0, e1, e2, e3, -⟩ := idx_facts t
  funext j
  show outsAt0 m c t ((cfg0.win 2).xinj (grid0.coords t) j) = outArr m c (((cfg0.win 2).blk t).view.emb j)
  have hj0 : (j 0).val < 1 := (j 0).isLt
  refine tile_eq m c t _ _ ?_ ?_ ?_ ?_
  · show win0_2.index t (0 : Fin 4) * 1 + 1 * (j 0).val = t.val / 7; omega
  · show win0_2.index t (1 : Fin 4) * 64 + 1 * (j 1).val = (j 1).val; omega
  · show win0_2.index t (2 : Fin 4) * 32 + 1 * (j 2).val = 32 * (t.val % 7) + (j 2).val; omega
  · show win0_2.index t (3 : Fin 4) * 222 + 1 * (j 3).val = (j 3).val; omega

/-- An index of the array lies in point t's block iff each coordinate lies in the block's range on its axis. -/
theorem mem_blk (t : Fin cfg0.N) (i : S16x64x224x222.Idx) :
    i ∈ ((cfg0.win 2).blk t).view.set ↔ ∀ a : Fin 4, win0_2.index t a * S1x64x32x222.size a ≤ (i a).val
      ∧ (i a).val < win0_2.index t a * S1x64x32x222.size a + S1x64x32x222.size a := by
  show i ∈ ((View.whole main_v1).slice (win0_2.rect t)).set ↔ _
  rw [View.set_slice_whole, Rect.mem_set_unit]
  exact Iff.rfl

/-- Entry (b, o, H, w) lies in the block of point 7·b + H / 32. -/
theorem covered (i : S16x64x224x222.Idx) :
    ∃ t : Fin cfg0.N, (cfg0.win 2).flush t = true ∧ i ∈ ((cfg0.win 2).blk t).view.set := by
  have hi0 : (i 0).val < 16 := (i 0).isLt
  have hi1 : (i 1).val < 64 := (i 1).isLt
  have hi2 : (i 2).val < 224 := (i 2).isLt
  have hi3 : (i 3).val < 222 := (i 3).isLt
  have hN : cfg0.N = 112 := N_0
  refine ⟨⟨7 * (i 0).val + (i 2).val / 32, by rw [hN]; omega⟩, flush0_2 _, ?_⟩
  rw [mem_blk]
  obtain ⟨-, -, -, -, -, -, e0, e1, e2, e3, -⟩ := idx_facts ⟨7 * (i 0).val + (i 2).val / 32, by rw [hN]; omega⟩
  intro a
  match a with
  | ⟨0, _⟩ => show win0_2.index _ (0 : Fin 4) * 1 ≤ (i 0).val ∧ (i 0).val < win0_2.index _ (0 : Fin 4) * 1 + 1
              rw [e0]; dsimp only; omega
  | ⟨1, _⟩ => show win0_2.index _ (1 : Fin 4) * 64 ≤ (i 1).val ∧ (i 1).val < win0_2.index _ (1 : Fin 4) * 64 + 64
              rw [e1]; omega
  | ⟨2, _⟩ => show win0_2.index _ (2 : Fin 4) * 32 ≤ (i 2).val ∧ (i 2).val < win0_2.index _ (2 : Fin 4) * 32 + 32
              rw [e2]; dsimp only; omega
  | ⟨3, _⟩ => show win0_2.index _ (3 : Fin 4) * 222 ≤ (i 3).val ∧ (i 3).val < win0_2.index _ (3 : Fin 4) * 222 + 222
              rw [e3]; omega

/-- So after the region the output array is that one function. -/
theorem final_out (c : Dev nD) : (dats m 0 c).arrAt 2 cfg0.N = outArr m c :=
  (dats m 0 c).arrAt_eq_of_cover 2 (outArr m c) (fun t _ => flushed_eq m c t) covered

end Cert.KerSide

end
-- ==== Proof.KernelValue.lean ====
/-
  The kernel program's run read as a value: the padded image is tiled by image, the output by (image, 32-row tile); every
  tile is written once, so the output array is the tiles side by side, and the final crop keeps rows below 222, where no
  read reaches the two padding rows.
-/
import proofs.«127827_j56427280335471_1_alg».proof.Proof.KernelCover
import Idealize.ShloMosaic.Lib.Pipeline.Value
import Idealize.ShloMosaic.Lib.KernelVsHost
import Idealize.ShloMosaic.Lib.StableHlo.Run

noncomputable section

namespace Cert.KerSide

open Cert.KernelIdeal Cert.KernelIdeal.Gen Idealize.ShloMosaic Idealize.ShloMosaic.TcCoe Idealize.ShloMosaic.ValueIdx Idealize.SL.Sem

/-- On an output row h below 222 the array's entry is the specification's: every read is at a row at most h + 2 ≤ 223,
    where the padded batch is the argument batch, and the two sums run over the same features in the same order. -/
theorem outAt_eq (m : (ℓ : Loc nD τ sig) → Buf (Elt Ideal) ℓ) (c : Dev nD) (b : Fin 16) (o : Fin 64) (H : Fin 224)
    (h : Fin 222) (hH : H.val = h.val) (w : Fin 222) :
    outAt m c b o H w = Cert.Spec.outAt (xarg m c) (warg m c) b o h w := by
  unfold outAt Cert.Spec.outAt Cert.Spec.feat Cert.Spec.patch
  refine Finset.sum_congr rfl fun f _ => ?_
  refine congrArg₂ (· * ·) rfl (congrArg₂ (· * ·) ?_ ?_)
  · exact ximg_apply m c b _ _ _ _ (by show H.val + _ = h.val + _; rw [hH])
  · exact ximg_apply m c b _ _ _ _ (by show H.val + _ = h.val + _; rw [hH])

/-- The program's result: the crop [:, :, 0:222, :] of the output array is the specification. -/
theorem tail_value (m : (ℓ : Loc nD τ sig) → Buf (Elt Ideal) ℓ) (c : Dev nD) :
    Pipeline.afterTail₀ cfgs (dats m) 0 (V0 m) [hostOps1] c main_v2
      = Cert.Spec.G (m ((c.tc : Thread nD τ).loc main_arg0)) (m ((c.tc : Thread nD τ).loc main_arg1)) := by
  unfold Pipeline.afterTail₀
  show StableHlo.after hostOps1 _ (Proc.devRef .tc main_v2) = _
  after_results
  rw [Pipeline.withArrays_arr spec0 launch0.win.arr_inj c _ _ 2, final_out]
  funext i
  obtain ⟨b, o, h, w, rfl⟩ : ∃ (b : Fin 16) (o : Fin 64) (h : Fin 222) (w : Fin 222), i = ix4 b o h w :=
    ⟨i 0, i 1, i 2, i 3, eq_ix4 i⟩
  refine (extractStridedSlice_apply _ _ _ (ix4 b o h w)
    (ix4 b o (⟨h.val, by have := h.isLt; omega⟩ : Fin 224) w) fun a => ?_).trans ?_
  · match a with
    | ⟨0, _⟩ => show b.val = 0 + b.val; omega
    | ⟨1, _⟩ => show o.val = 0 + o.val; omega
    | ⟨2, _⟩ => show h.val = 0 + h.val; omega
    | ⟨3, _⟩ => show w.val = 0 + w.val; omega
  · exact outAt_eq m c b o _ h rfl w

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans (tail_value m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KerSide

end
-- ==== Proof.RefTerm.lean ====
/-
  The reference program's result as a pure function of its two arguments: every host operation of the reference, in
  the program's order, named. The image is cut into the nine shifted 222×222 windows (one per position of a 3×3
  stencil), stacked along a new axis, brought to [batch, pixel, channel, position], gathered twice along the position
  axis (by the first and by the second member of each of the 45 pairs), multiplied, flattened to 135 features per pixel,
  contracted with the weights, and laid out [batch, out-channel, row, column].
-/
import proofs.«127827_j56427280335471_1_alg».proof.Proof.Gen.ReferenceIdeal

noncomputable section

namespace Cert.RefSide

open Cert.ReferenceIdeal Cert.ReferenceIdeal.Gen Idealize.ShloMosaic Idealize.SL.Sem

variable {F : FTy → Type} [FloatOps F]

/-- The table of the 45 position pairs, as the program's literal holds it. -/
def pairTable : IVec S45x2 32 := fun i => lit0 (S45x2.rowMajor i)

/-- The shifted window of the image at position (dy, dx). -/
def win00 (x : FVec F S16x3x224x224 .f32) : FVec F S16x3x222x222 .f32 := extractStridedSlice S16x3x222x222 ![0, 0, 0, 0] x slices_S16x3x224x224_S16x3x222x222_0_0_0_0
def win01 (x : FVec F S16x3x224x224 .f32) : FVec F S16x3x222x222 .f32 := extractStridedSlice S16x3x222x222 ![0, 0, 0, 1] x slices_S16x3x224x224_S16x3x222x222_0_0_0_1
def win02 (x : FVec F S16x3x224x224 .f32) : FVec F S16x3x222x222 .f32 := extractStridedSlice S16x3x222x222 ![0, 0, 0, 2] x slices_S16x3x224x224_S16x3x222x222_0_0_0_2
def win10 (x : FVec F S16x3x224x224 .f32) : FVec F S16x3x222x222 .f32 := extractStridedSlice S16x3x222x222 ![0, 0, 1, 0] x slices_S16x3x224x224_S16x3x222x222_0_0_1_0
def win11 (x : FVec F S16x3x224x224 .f32) : FVec F S16x3x222x222 .f32 := extractStridedSlice S16x3x222x222 ![0, 0, 1, 1] x slices_S16x3x224x224_S16x3x222x222_0_0_1_1
def win12 (x : FVec F S16x3x224x224 .f32) : FVec F S16x3x222x222 .f32 := extractStridedSlice S16x3x222x222 ![0, 0, 1, 2] x slices_S16x3x224x224_S16x3x222x222_0_0_1_2
def win20 (x : FVec F S16x3x224x224 .f32) : FVec F S16x3x222x222 .f32 := extractStridedSlice S16x3x222x222 ![0, 0, 2, 0] x slices_S16x3x224x224_S16x3x222x222_0_0_2_0
def win21 (x : FVec F S16x3x224x224 .f32) : FVec F S16x3x222x222 .f32 := extractStridedSlice S16x3x222x222 ![0, 0, 2, 1] x slices_S16x3x224x224_S16x3x222x222_0_0_2_1
def win22 (x : FVec F S16x3x224x224 .f32) : FVec F S16x3x222x222 .f32 := extractStridedSlice S16x3x222x222 ![0, 0, 2, 2] x slices_S16x3x224x224_S16x3x222x222_0_0_2_2

/-- A window with a unit position axis inserted. -/
def lift1 (v : FVec F S16x3x222x222 .f32) : FVec F S16x3x1x222x222 .f32 :=
  broadcastInDim S16x3x1x222x222 ![0, 1, 3, 4] bcast_S16x3x222x222_S16x3x1x222x222_0_1_3_4 v

/-- The nine windows stacked along the position axis: [batch, channel, position, row, column]. -/
def stacked (x : FVec F S16x3x224x224 .f32) : FVec F S16x3x9x222x222 .f32 :=
  concatenate S16x3x9x222x222 2 [⟨S16x3x1x222x222, lift1 (win00 x)⟩, ⟨S16x3x1x222x222, lift1 (win01 x)⟩, ⟨S16x3x1x222x222, lift1 (win02 x)⟩, ⟨S16x3x1x222x222, lift1 (win10 x)⟩, ⟨S16x3x1x222x222, lift1 (win11 x)⟩, ⟨S16x3x1x222x222, lift1 (win12 x)⟩, ⟨S16x3x1x222x222, lift1 (win20 x)⟩, ⟨S16x3x1x222x222, lift1 (win21 x)⟩, ⟨S16x3x1x222x222, lift1 (win22 x)⟩] concatenates_S16x3x1x222x222_S16x3x1x222x222_S16x3x1x222x222_S16x3x1x222x222_S16x3x1x222x222_S16x3x1x222x222_S16x3x1x222x222_S16x3x1x222x222_S16x3x1x222x222_S16x3x9x222x222_d2

/-- [batch, row, column, channel, position]. -/
def moved (x : FVec F S16x3x224x224 .f32) : FVec F S16x222x222x3x9 .f32 :=
  transpose S16x222x222x3x9 [0, 3, 4, 1, 2] (stacked x) transposes_S16x3x9x222x222_S16x222x222x3x9_0_3_4_1_2

/-- [batch, pixel, channel, position], the pixel being row · 222 + column. -/
def patches (x : FVec F S16x3x224x224 .f32) : FVec F S16x49284x3x9 .f32 :=
  shapeCast S16x49284x3x9 (moved x) shapeCasts_S16x222x222x3x9_S16x49284x3x9

/-- Column k (0 or 1) of the pair table as a length-45 vector. -/
def col0 : IVec S45 32 := shapeCast S45 (extractStridedSlice S45x1 ![0, 0] pairTable slices_S45x2_S45x1_0_0) shapeCasts_S45x1_S45
def col1 : IVec S45 32 := shapeCast S45 (extractStridedSlice S45x1 ![0, 1] pairTable slices_S45x2_S45x1_0_1) shapeCasts_S45x1_S45

/-- A column of positions with a negative entry wrapped around by 9 (numpy's indexing convention), as start indices. -/
def wrapIdx (v : IVec S45 32) : IVec S45x1 32 :=
  broadcastInDim S45x1 ![0] bcast_S45_S45x1_0
    (select (cmpi .slt v (broadcastInDim S45 ![] bcast_S_S45 (constantI S_ 32 0#32)))
      (addi v (broadcastInDim S45 ![] bcast_S_S45 (constantI S_ 32 9#32))) v)

/-- The patches gathered along the position axis by a column of the pair table: [batch, pixel, channel, pair]. -/
def gathered (x : FVec F S16x3x224x224 .f32) (v : IVec S45 32) : FVec F S16x49284x3x45 .f32 :=
  Host.gather gather_S16x49284x3x9_S45x1_S16x49284x3x45_012_3_n_n_3_1_164928431 (patches x) (wrapIdx v)

/-- The 135 features per pixel: [batch, pixel, feature]. -/
def features (x : FVec F S16x3x224x224 .f32) : FVec F S16x49284x135 .f32 :=
  shapeCast S16x49284x135 (mulf (gathered x col0) (gathered x col1)) shapeCasts_S16x49284x3x45_S16x49284x135

/-- The contraction with the weights: [out-channel, batch, pixel]. -/
def contracted (x : FVec F S16x3x224x224 .f32) (wt : FVec F S64x135 .f32) : FVec F S64x16x49284 .f32 :=
  Host.dotGeneral dot_S64x135_S16x49284x135_S64x16x49284_1_2_0_01_n_n none wt (features x)

/-- The reference's result: [batch, out-channel, row, column]. -/
def result (x : FVec F S16x3x224x224 .f32) (wt : FVec F S64x135 .f32) : FVec F S16x64x222x222 .f32 :=
  shapeCast S16x64x222x222
    (transpose S16x64x49284 [1, 0, 2] (contracted x wt) transposes_S64x16x49284_S16x64x49284_1_0_2)
    shapeCasts_S16x64x49284_S16x64x222x222

end Cert.RefSide

end
-- ==== Proof.RefRun.lean ====
/-
  The reference program's run: its @main is a straight line of host operations, so every weakly fair execution ends with
  the result buffer at the operations' composed function of the two arguments, which end unchanged.
-/
import proofs.«127827_j56427280335471_1_alg».proof.Proof.RefTerm
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! The operations are listed in the program's order; the program is the sequence of that list by unfolding. What a
buffer holds after the list has run is a fold: each operation puts its function's value, at what its operand buffers then
held, into its own result buffer and leaves every other buffer alone. Read back from the result buffer, the fold is the
composition RefTerm names: nine windows, each lifted by a unit position axis, stacked, transposed and flattened to
patches; the two columns of the pair table, wrapped and used as gather indices; the product of the two gathers flattened
to features; the contraction with the weights; the final transpose and reshape. -/

namespace Line

/-- The stacking operation: afterwards its result buffer holds the concatenation, along the position axis, of what the
    nine operand buffers held, each operand read at its own buffer. -/
theorem stacked_result (hxs hy) (V : Valuation τ sig (Elt F)) :
    (nary (τ := τ) ![main_v9, main_v10, main_v11, main_v12, main_v13, main_v14, main_v15, main_v16, main_v17] main_v18
        (fun u => concatenate S16x3x9x222x222 2 [⟨S16x3x1x222x222, u 0⟩, ⟨S16x3x1x222x222, u 1⟩, ⟨S16x3x1x222x222, u 2⟩, ⟨S16x3x1x222x222, u 3⟩, ⟨S16x3x1x222x222, u 4⟩, ⟨S16x3x1x222x222, u 5⟩, ⟨S16x3x1x222x222, u 6⟩, ⟨S16x3x1x222x222, u 7⟩, ⟨S16x3x1x222x222, u 8⟩] concatenates_S16x3x1x222x222_S16x3x1x222x222_S16x3x1x222x222_S16x3x1x222x222_S16x3x1x222x222_S16x3x1x222x222_S16x3x1x222x222_S16x3x1x222x222_S16x3x1x222x222_S16x3x9x222x222_d2)
        hxs hy).result V (no_index (Proc.devRef .tc main_v18))
      = concatenate S16x3x9x222x222 2 [⟨S16x3x1x222x222, V (Proc.devRef .tc main_v9)⟩, ⟨S16x3x1x222x222, V (Proc.devRef .tc main_v10)⟩, ⟨S16x3x1x222x222, V (Proc.devRef .tc main_v11)⟩, ⟨S16x3x1x222x222, V (Proc.devRef .tc main_v12)⟩, ⟨S16x3x1x222x222, V (Proc.devRef .tc main_v13)⟩, ⟨S16x3x1x222x222, V (Proc.devRef .tc main_v14)⟩, ⟨S16x3x1x222x222, V (Proc.devRef .tc main_v15)⟩, ⟨S16x3x1x222x222, V (Proc.devRef .tc main_v16)⟩, ⟨S16x3x1x222x222, V (Proc.devRef .tc main_v17)⟩] concatenates_S16x3x1x222x222_S16x3x1x222x222_S16x3x1x222x222_S16x3x1x222x222_S16x3x1x222x222_S16x3x1x222x222_S16x3x1x222x222_S16x3x1x222x222_S16x3x1x222x222_S16x3x9x222x222_d2 :=
  nary_result _ _ _ hxs hy V

/-- The program's operations, in order. -/
abbrev ops : List (HloOp τ sig (Elt F)) :=
  [ nullary main_c (fun i => lit0 (S45x2.rowMajor i)),
    unary main_arg0 main_v0 ((extractStridedSlice S16x3x222x222 ![0, 0, 0, 0] · slices_S16x3x224x224_S16x3x222x222_0_0_0_0) : (⟨S16x3x224x224, .f32⟩ : BufTy).Contents (Elt F) → (⟨S16x3x222x222, .f32⟩ : BufTy).Contents (Elt F)),
    unary main_arg0 main_v1 ((extractStridedSlice S16x3x222x222 ![0, 0, 0, 1] · slices_S16x3x224x224_S16x3x222x222_0_0_0_1) : (⟨S16x3x224x224, .f32⟩ : BufTy).Contents (Elt F) → (⟨S16x3x222x222, .f32⟩ : BufTy).Contents (Elt F)),
    unary main_arg0 main_v2 ((extractStridedSlice S16x3x222x222 ![0, 0, 0, 2] · slices_S16x3x224x224_S16x3x222x222_0_0_0_2) : (⟨S16x3x224x224, .f32⟩ : BufTy).Contents (Elt F) → (⟨S16x3x222x222, .f32⟩ : BufTy).Contents (Elt F)),
    unary main_arg0 main_v3 ((extractStridedSlice S16x3x222x222 ![0, 0, 1, 0] · slices_S16x3x224x224_S16x3x222x222_0_0_1_0) : (⟨S16x3x224x224, .f32⟩ : BufTy).Contents (Elt F) → (⟨S16x3x222x222, .f32⟩ : BufTy).Contents (Elt F)),
    unary main_arg0 main_v4 ((extractStridedSlice S16x3x222x222 ![0, 0, 1, 1] · slices_S16x3x224x224_S16x3x222x222_0_0_1_1) : (⟨S16x3x224x224, .f32⟩ : BufTy).Contents (Elt F) → (⟨S16x3x222x222, .f32⟩ : BufTy).Contents (Elt F)),
    unary main_arg0 main_v5 ((extractStridedSlice S16x3x222x222 ![0, 0, 1, 2] · slices_S16x3x224x224_S16x3x222x222_0_0_1_2) : (⟨S16x3x224x224, .f32⟩ : BufTy).Contents (Elt F) → (⟨S16x3x222x222, .f32⟩ : BufTy).Contents (Elt F)),
    unary main_arg0 main_v6 ((extractStridedSlice S16x3x222x222 ![0, 0, 2, 0] · slices_S16x3x224x224_S16x3x222x222_0_0_2_0) : (⟨S16x3x224x224, .f32⟩ : BufTy).Contents (Elt F) → (⟨S16x3x222x222, .f32⟩ : BufTy).Contents (Elt F)),
    unary main_arg0 main_v7 ((extractStridedSlice S16x3x222x222 ![0, 0, 2, 1] · slices_S16x3x224x224_S16x3x222x222_0_0_2_1) : (⟨S16x3x224x224, .f32⟩ : BufTy).Contents (Elt F) → (⟨S16x3x222x222, .f32⟩ : BufTy).Contents (Elt F)),
    unary main_arg0 main_v8 ((extractStridedSlice S16x3x222x222 ![0, 0, 2, 2] · slices_S16x3x224x224_S16x3x222x222_0_0_2_2) : (⟨S16x3x224x224, .f32⟩ : BufTy).Contents (Elt F) → (⟨S16x3x222x222, .f32⟩ : BufTy).Contents (Elt F)),
    unary main_v0 main_v9 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v1 main_v10 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v2 main_v11 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v3 main_v12 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v4 main_v13 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v5 main_v14 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v6 main_v15 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v7 main_v16 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    unary main_v8 main_v17 (broadcastInDim S16x3x1x222x222 ![0, 1, 3, 4] bcast_S16x3x222x222_S16x3x1x222x222_0_1_3_4 : (⟨S16x3x222x222, .f32⟩ : BufTy).Contents (Elt F) → (⟨S16x3x1x222x222, .f32⟩ : BufTy).Contents (Elt F)),
    nary ![main_v9, main_v10, main_v11, main_v12, main_v13, main_v14, main_v15, main_v16, main_v17] main_v18 (fun u => concatenate S16x3x9x222x222 2 [⟨S16x3x1x222x222, u 0⟩, ⟨S16x3x1x222x222, u 1⟩, ⟨S16x3x1x222x222, u 2⟩, ⟨S16x3x1x222x222, u 3⟩, ⟨S16x3x1x222x222, u 4⟩, ⟨S16x3x1x222x222, u 5⟩, ⟨S16x3x1x222x222, u 6⟩, ⟨S16x3x1x222x222, u 7⟩, ⟨S16x3x1x222x222, u 8⟩] concatenates_S16x3x1x222x222_S16x3x1x222x222_S16x3x1x222x222_S16x3x1x222x222_S16x3x1x222x222_S16x3x1x222x222_S16x3x1x222x222_S16x3x1x222x222_S16x3x1x222x222_S16x3x9x222x222_d2),
    unary main_v18 main_v19 ((transpose S16x222x222x3x9 [0, 3, 4, 1, 2] · transposes_S16x3x9x222x222_S16x222x222x3x9_0_3_4_1_2) : (⟨S16x3x9x222x222, .f32⟩ : BufTy).Contents (Elt F) → (⟨S16x222x222x3x9, .f32⟩ : BufTy).Contents (Elt F)),
    reshape main_v19 main_v20 rfl shapeCasts_S16x222x222x3x9_S16x49284x3x9,
    unary main_c main_v21 ((extractStridedSlice S45x1 ![0, 0] · slices_S45x2_S45x1_0_0) : (⟨S45x2, .i32⟩ : BufTy).Contents (Elt F) → (⟨S45x1, .i32⟩ : BufTy).Contents (Elt F)),
    reshape main_v21 main_v22 rfl shapeCasts_S45x1_S45,
    nullary main_c_0 (constantI S_ 32 0#32),
    unary main_c_0 main_v23 (broadcastInDim S45 ![] bcast_S_S45 : (⟨S_, .i32⟩ : BufTy).Contents (Elt F) → (⟨S45, .i32⟩ : BufTy).Contents (Elt F)),
    binary main_v22 main_v23 main_v24 (cmpi .slt : (⟨S45, .i32⟩ : BufTy).Contents (Elt F) → (⟨S45, .i32⟩ : BufTy).Contents (Elt F) → (⟨S45, .i1⟩ : BufTy).Contents (Elt F)),
    nullary main_c_1 (constantI S_ 32 9#32),
    unary main_c_1 main_v25 (broadcastInDim S45 ![] bcast_S_S45 : (⟨S_, .i32⟩ : BufTy).Contents (Elt F) → (⟨S45, .i32⟩ : BufTy).Contents (Elt F)),
    binary main_v22 main_v25 main_v26 (addi : (⟨S45, .i32⟩ : BufTy).Contents (Elt F) → (⟨S45, .i32⟩ : BufTy).Contents (Elt F) → (⟨S45, .i32⟩ : BufTy).Contents (Elt F)),
    ternary main_v24 main_v26 main_v22 main_v27 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v27 main_v28 (broadcastInDim S45x1 ![0] bcast_S45_S45x1_0 : (⟨S45, .i32⟩ : BufTy).Contents (Elt F) → (⟨S45x1, .i32⟩ : BufTy).Contents (Elt F)),
    binary main_v20 main_v28 main_v29 ((fun x i => Host.gather gather_S16x49284x3x9_S45x1_S16x49284x3x45_012_3_n_n_3_1_164928431 x i) : (⟨S16x49284x3x9, .f32⟩ : BufTy).Contents (Elt F) → (⟨S45x1, .i32⟩ : BufTy).Contents (Elt F) → (⟨S16x49284x3x45, .f32⟩ : BufTy).Contents (Elt F)),
    unary main_c main_v30 ((extractStridedSlice S45x1 ![0, 1] · slices_S45x2_S45x1_0_1) : (⟨S45x2, .i32⟩ : BufTy).Contents (Elt F) → (⟨S45x1, .i32⟩ : BufTy).Contents (Elt F)),
    reshape main_v30 main_v31 rfl shapeCasts_S45x1_S45,
    nullary main_c_2 (constantI S_ 32 0#32),
    unary main_c_2 main_v32 (broadcastInDim S45 ![] bcast_S_S45 : (⟨S_, .i32⟩ : BufTy).Contents (Elt F) → (⟨S45, .i32⟩ : BufTy).Contents (Elt F)),
    binary main_v31 main_v32 main_v33 (cmpi .slt : (⟨S45, .i32⟩ : BufTy).Contents (Elt F) → (⟨S45, .i32⟩ : BufTy).Contents (Elt F) → (⟨S45, .i1⟩ : BufTy).Contents (Elt F)),
    nullary main_c_3 (constantI S_ 32 9#32),
    unary main_c_3 main_v34 (broadcastInDim S45 ![] bcast_S_S45 : (⟨S_, .i32⟩ : BufTy).Contents (Elt F) → (⟨S45, .i32⟩ : BufTy).Contents (Elt F)),
    binary main_v31 main_v34 main_v35 (addi : (⟨S45, .i32⟩ : BufTy).Contents (Elt F) → (⟨S45, .i32⟩ : BufTy).Contents (Elt F) → (⟨S45, .i32⟩ : BufTy).Contents (Elt F)),
    ternary main_v33 main_v35 main_v31 main_v36 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v36 main_v37 (broadcastInDim S45x1 ![0] bcast_S45_S45x1_0 : (⟨S45, .i32⟩ : BufTy).Contents (Elt F) → (⟨S45x1, .i32⟩ : BufTy).Contents (Elt F)),
    binary main_v20 main_v37 main_v38 ((fun x i => Host.gather gather_S16x49284x3x9_S45x1_S16x49284x3x45_012_3_n_n_3_1_164928431 x i) : (⟨S16x49284x3x9, .f32⟩ : BufTy).Contents (Elt F) → (⟨S45x1, .i32⟩ : BufTy).Contents (Elt F) → (⟨S16x49284x3x45, .f32⟩ : BufTy).Contents (Elt F)),
    binary main_v29 main_v38 main_v39 (mulf : (⟨S16x49284x3x45, .f32⟩ : BufTy).Contents (Elt F) → (⟨S16x49284x3x45, .f32⟩ : BufTy).Contents (Elt F) → (⟨S16x49284x3x45, .f32⟩ : BufTy).Contents (Elt F)),
    reshape main_v39 main_v40 rfl shapeCasts_S16x49284x3x45_S16x49284x135,
    binary main_arg1 main_v40 main_v41 ((fun l r => Host.dotGeneral dot_S64x135_S16x49284x135_S64x16x49284_1_2_0_01_n_n none l r) : (⟨S64x135, .f32⟩ : BufTy).Contents (Elt F) → (⟨S16x49284x135, .f32⟩ : BufTy).Contents (Elt F) → (⟨S64x16x49284, .f32⟩ : BufTy).Contents (Elt F)),
    unary main_v41 main_v42 ((transpose S16x64x49284 [1, 0, 2] · transposes_S64x16x49284_S16x64x49284_1_0_2) : (⟨S64x16x49284, .f32⟩ : BufTy).Contents (Elt F) → (⟨S16x64x49284, .f32⟩ : BufTy).Contents (Elt F)),
    reshape main_v42 main_v43 rfl shapeCasts_S16x64x49284_S16x64x222x222 ]

set_option maxRecDepth 16384 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., binary_bufs_sub .., unary_bufs_sub .., reshape_bufs_sub ..⟩

set_option maxHeartbeats 1600000 in
/-- What the result buffer holds once the operations have run from launch contents: the reference's function of the two
    arguments. Each operation's result is read back at its own buffer, every other buffer keeping what it held; the nine
    stacked operands, which sit inside the concatenation's list, are read back one buffer at a time. -/
theorem result_eq_after (m : (ℓ : Loc nD τ sig) → Buf (Elt F) ℓ) (c : Dev nD) :
    after ops (launchContents m c) (Proc.devRef .tc main_v43)
      = result (m ((c.tc : Thread nD τ).loc main_arg0)) (m ((c.tc : Thread nD τ).loc main_arg1)) := by
  simp (disch := decide) only [after_cons, after_nil,
      nullary_result', unary_result', binary_result', ternary_result', reshape_result', stacked_result,
      nullary_result_ne', unary_result_ne', binary_result_ne', ternary_result_ne', reshape_result_ne', nary_result_ne']
  repeat (first
    | rw [unary_result]
    | (rw [unary_result_ne]; rotate_left; decide)
    | (rw [nullary_result_ne]; rotate_left; decide))
  rfl

end Line

/-- On every device, for any float values, from any memory with zero counters: every weakly fair execution of the
    reference terminates with the result buffer at the reference's function of the two arguments, and the arguments
    unchanged (no operation writes an argument buffer). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v43).trans (Line.result_eq_after m c),
      (h c main_arg0).trans (by after_results_simp),
      (h c main_arg1).trans (by after_results_simp)⟩)
    (run_seq Line.scopedRefs_eq Line.scopedSems_eq defs main (fun _ => Line.ops) Line.main_eq (fun _ => Line.ops_sub) m ρ)

end Cert.RefSide

end
-- ==== Proof.RefValue.lean ====
/-
  The reference's composed function is the specification, index by index.

  Every operation of the reference moves or multiplies elements without reordering any sum, so the proof reads the
  result at one index (b, o, h, w) and follows it inward, one operation at a time, each step saying "this operation
  read at this index is its operand at that index":

    result (b, o, h, w)            = contraction (o, b, l),  l = h · 222 + w        (row-major positions agree, axes 0, 1 swapped)
    contraction (o, b, l)          = ∑ f < 135, wt (o, f) · features (b, l, f)      (one contracted axis)
    features (b, l, f)             = gathered₀ (b, l, c, p) · gathered₁ (b, l, c, p),  f = 45 c + p
    gathered by a column (b,l,c,p) = patches (b, l, c, K),  K the column's p-th entry (never negative, at most 8)
    patches (b, l, c, k)           = the stack (b, c, k, h, w) = window k (b, c, h, w) = x (b, c, h + k / 3, w + k % 3).

  The two columns of the pair table are the first and second members of the 45 pairs, so K is posA p or posB p, and the
  sum over f is the specification's sum term by term.
-/
import proofs.«127827_j56427280335471_1_alg».proof.Proof.RefTerm
import proofs.«127827_j56427280335471_1_alg».proof.Proof.Spec
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx Idealize.SL.Sem

namespace Value

/-! ## The patches: from the image to [batch, pixel, channel, position] -/

/-- The pixel number of row h, column w: h · 222 + w. -/
def pix (h w : Fin 222) : Fin 49284 := ⟨h.val * 222 + w.val, by have := h.isLt; have := w.isLt; omega⟩

/-- A window of the image shifted by (dy, dx), read at (b, c, h, w), is the image at (b, c, h + dy, w + dx). -/
theorem slice_apply (dy dx : Nat) (hdy : dy ≤ 2) (hdx : dx ≤ 2) (x : FVec Ideal S16x3x224x224 .f32)
    (hs : S16x3x224x224.Slices ![0, 0, dy, dx] S16x3x222x222) (b : Fin 16) (c : Fin 3) (h w : Fin 222) :
    extractStridedSlice S16x3x222x222 ![0, 0, dy, dx] x hs (ix4 b c h w)
      = x (ix4 b c (⟨h.val + dy, by have := h.isLt; omega⟩ : Fin 224) (⟨w.val + dx, by have := w.isLt; omega⟩ : Fin 224)) := by
  refine extractStridedSlice_apply _ x hs _ _ (fun a => ?_)
  match a with
  | ⟨0, _⟩ => show b.val = 0 + b.val; omega
  | ⟨1, _⟩ => show c.val = 0 + c.val; omega
  | ⟨2, _⟩ => show h.val + dy = dy + h.val; omega
  | ⟨3, _⟩ => show w.val + dx = dx + w.val; omega

/-- The unit position axis carries nothing: the lifted window at (b, c, 0, h, w) is the window at (b, c, h, w). -/
theorem lift1_apply (v : FVec Ideal S16x3x222x222 .f32) (b : Fin 16) (c : Fin 3) (z : Fin 1) (h w : Fin 222) :
    lift1 v (ix5 b c z h w) = v (ix4 b c h w) := by
  unfold lift1
  refine broadcastInDim_apply _ _ v _ _ (fun a => ?_)
  match a with
  | ⟨0, _⟩ => rfl
  | ⟨1, _⟩ => rfl
  | ⟨2, _⟩ => rfl
  | ⟨3, _⟩ => rfl

/-- The nine lifted windows in stacking order. -/
def windows (x : FVec Ideal S16x3x224x224 .f32) : List ((s : Shape) × (s.Idx → Ideal .f32)) :=
  [⟨S16x3x1x222x222, lift1 (win00 x)⟩, ⟨S16x3x1x222x222, lift1 (win01 x)⟩, ⟨S16x3x1x222x222, lift1 (win02 x)⟩,
   ⟨S16x3x1x222x222, lift1 (win10 x)⟩, ⟨S16x3x1x222x222, lift1 (win11 x)⟩, ⟨S16x3x1x222x222, lift1 (win12 x)⟩,
   ⟨S16x3x1x222x222, lift1 (win20 x)⟩, ⟨S16x3x1x222x222, lift1 (win21 x)⟩, ⟨S16x3x1x222x222, lift1 (win22 x)⟩]

/-- Piece K of the stack: the stack at position K is the K-th window (the K pieces before it have extent one each). -/
theorem stacked_piece (x : FVec Ideal S16x3x224x224 .f32) (b : Fin 16) (c : Fin 3) (h w : Fin 222)
    (K : Nat) (hK : K < 9) (v : FVec Ideal S16x3x222x222 .f32)
    (hxk : (windows x)[K]'hK = ⟨S16x3x1x222x222, lift1 v⟩)
    (hpre : ((((windows x).take K).map (·.1)).map
        (fun s => if e : s.rank = S16x3x9x222x222.rank then s.size ((2 : Fin S16x3x9x222x222.rank).cast e.symm) else 0)).sum = K) :
    stacked x (ix5 b c (⟨K, hK⟩ : Fin 9) h w) = v (ix4 b c h w) := by
  show concatenate S16x3x9x222x222 2 (windows x) concatenates_S16x3x1x222x222_S16x3x1x222x222_S16x3x1x222x222_S16x3x1x222x222_S16x3x1x222x222_S16x3x1x222x222_S16x3x1x222x222_S16x3x1x222x222_S16x3x1x222x222_S16x3x9x222x222_d2 _ = _
  refine (concatenate_apply_piece (2 : Fin S16x3x9x222x222.rank) (windows x) _ (ix5 b c (⟨K, hK⟩ : Fin 9) h w) K hK
    S16x3x1x222x222 (lift1 v) hxk rfl K hpre (ix5 b c (0 : Fin 1) h w) ?_ ?_).trans ?_
  · intro a ha
    match a with
    | ⟨0, _⟩ => rfl
    | ⟨1, _⟩ => rfl
    | ⟨2, _⟩ => exact absurd rfl ha
    | ⟨3, _⟩ => rfl
    | ⟨4, _⟩ => rfl
  · show K + 0 = K
    omega
  · exact lift1_apply v b c 0 h w

/-- The image at (b, c, h + dy, w + dx) is the read under window position k when dy = k / 3 and dx = k % 3. -/
theorem patch_of_offsets (x : FVec Ideal S16x3x224x224 .f32) (b : Fin 16) (c : Fin 3) (K : Nat) (hK : K < 9) (h w : Fin 222)
    (dy dx : Nat) (hy : dy = K / 3) (hx : dx = K % 3) (h1 : h.val + dy < 224) (h2 : w.val + dx < 224) :
    x (ix4 b c (⟨h.val + dy, h1⟩ : Fin 224) (⟨w.val + dx, h2⟩ : Fin 224)) = Cert.Spec.patch x b c ⟨K, hK⟩ h w := by
  subst hy hx
  rfl

/-- The stack at (b, c, k, h, w) is the image under window position k at pixel (h, w). -/
theorem stacked_apply (x : FVec Ideal S16x3x224x224 .f32) (b : Fin 16) (c : Fin 3) (k : Fin 9) (h w : Fin 222) :
    stacked x (ix5 b c k h w) = Cert.Spec.patch x b c k h w := by
  match k with
  | ⟨0, hk⟩ =>
    refine (stacked_piece x b c h w 0 hk (win00 x) rfl rfl).trans ?_
    refine (slice_apply 0 0 (by omega) (by omega) x slices_S16x3x224x224_S16x3x222x222_0_0_0_0 b c h w).trans ?_
    exact patch_of_offsets x b c 0 hk h w 0 0 (by decide) (by decide) _ _
  | ⟨1, hk⟩ =>
    refine (stacked_piece x b c h w 1 hk (win01 x) rfl rfl).trans ?_
    refine (slice_apply 0 1 (by omega) (by omega) x slices_S16x3x224x224_S16x3x222x222_0_0_0_1 b c h w).trans ?_
    exact patch_of_offsets x b c 1 hk h w 0 1 (by decide) (by decide) _ _
  | ⟨2, hk⟩ =>
    refine (stacked_piece x b c h w 2 hk (win02 x) rfl rfl).trans ?_
    refine (slice_apply 0 2 (by omega) (by omega) x slices_S16x3x224x224_S16x3x222x222_0_0_0_2 b c h w).trans ?_
    exact patch_of_offsets x b c 2 hk h w 0 2 (by decide) (by decide) _ _
  | ⟨3, hk⟩ =>
    refine (stacked_piece x b c h w 3 hk (win10 x) rfl rfl).trans ?_
    refine (slice_apply 1 0 (by omega) (by omega) x slices_S16x3x224x224_S16x3x222x222_0_0_1_0 b c h w).trans ?_
    exact patch_of_offsets x b c 3 hk h w 1 0 (by decide) (by decide) _ _
  | ⟨4, hk⟩ =>
    refine (stacked_piece x b c h w 4 hk (win11 x) rfl rfl).trans ?_
    refine (slice_apply 1 1 (by omega) (by omega) x slices_S16x3x224x224_S16x3x222x222_0_0_1_1 b c h w).trans ?_
    exact patch_of_offsets x b c 4 hk h w 1 1 (by decide) (by decide) _ _
  | ⟨5, hk⟩ =>
    refine (stacked_piece x b c h w 5 hk (win12 x) rfl rfl).trans ?_
    refine (slice_apply 1 2 (by omega) (by omega) x slices_S16x3x224x224_S16x3x222x222_0_0_1_2 b c h w).trans ?_
    exact patch_of_offsets x b c 5 hk h w 1 2 (by decide) (by decide) _ _
  | ⟨6, hk⟩ =>
    refine (stacked_piece x b c h w 6 hk (win20 x) rfl rfl).trans ?_
    refine (slice_apply 2 0 (by omega) (by omega) x slices_S16x3x224x224_S16x3x222x222_0_0_2_0 b c h w).trans ?_
    exact patch_of_offsets x b c 6 hk h w 2 0 (by decide) (by decide) _ _
  | ⟨7, hk⟩ =>
    refine (stacked_piece x b c h w 7 hk (win21 x) rfl rfl).trans ?_
    refine (slice_apply 2 1 (by omega) (by omega) x slices_S16x3x224x224_S16x3x222x222_0_0_2_1 b c h w).trans ?_
    exact patch_of_offsets x b c 7 hk h w 2 1 (by decide) (by decide) _ _
  | ⟨8, hk⟩ =>
    refine (stacked_piece x b c h w 8 hk (win22 x) rfl rfl).trans ?_
    refine (slice_apply 2 2 (by omega) (by omega) x slices_S16x3x224x224_S16x3x222x222_0_0_2_2 b c h w).trans ?_
    exact patch_of_offsets x b c 8 hk h w 2 2 (by decide) (by decide) _ _

/-- Position and channel moved behind the pixel: [batch, row, column, channel, position]. -/
theorem moved_apply (x : FVec Ideal S16x3x224x224 .f32) (b : Fin 16) (h w : Fin 222) (c : Fin 3) (k : Fin 9) :
    moved x (ix5 b h w c k) = stacked x (ix5 b c k h w) := by
  unfold moved
  exact transpose_apply _ _ _ _ _ (fun a => match a with
    | ⟨0, _⟩ => rfl | ⟨1, _⟩ => rfl | ⟨2, _⟩ => rfl | ⟨3, _⟩ => rfl | ⟨4, _⟩ => rfl)

/-- Rows and columns flattened to pixels: pixel h · 222 + w of the patches is (h, w) of the moved stack. -/
theorem patches_apply (x : FVec Ideal S16x3x224x224 .f32) (b : Fin 16) (h w : Fin 222) (c : Fin 3) (k : Fin 9) :
    patches x (ix4 b (pix h w) c k) = Cert.Spec.patch x b c k h w := by
  unfold patches
  refine (shapeCast_apply _ _ (ix4 b (pix h w) c k) (ix5 b h w c k) ?_).trans ((moved_apply x b h w c k).trans (stacked_apply x b c k h w))
  rw [Shape.rowMajor_val_five, Shape.rowMajor_val_four]
  show (((b.val * 222 + h.val) * 222 + w.val) * 3 + c.val) * 9 + k.val
    = ((b.val * 49284 + (h.val * 222 + w.val)) * 3 + c.val) * 9 + k.val
  omega

/-! ## The gather along the position axis -/

/-- The gather's dimension numbers: offset axes 0, 1, 2 of the result carry operand axes 0, 1, 2; operand axis 3 is
    collapsed and indexed by the start index, which result axis 3 selects. -/
abbrev GD : GatherDims S16x49284x3x9 S45x1 S16x49284x3x45 :=
  gather_S16x49284x3x9_S45x1_S16x49284x3x45_012_3_n_n_3_1_164928431

/-- The start-index entry that result index j reads: row (j 3) of the one-column index array. -/
theorem gd_siIdx (j : S16x49284x3x45.Idx) (c : Fin GD.startIndexMap.length) :
    GD.siIdx j c = ix2 (n0 := 45) (n1 := 1) (j 3) 0 := by
  funext a
  refine Fin.ext ?_
  match a with
  | ⟨0, _⟩ => rfl
  | ⟨1, h1⟩ =>
    have h2 := (GD.siIdx j c ⟨1, h1⟩).isLt
    have h3 : S45x1.size ⟨1, h1⟩ = 1 := rfl
    show (GD.siIdx j c ⟨1, h1⟩).val = 0
    omega

/-- On operand axis 0 the gather reads the result's coordinate 0. -/
theorem gd_axis0 (j : S16x49284x3x45.Idx) (idx : IVec S45x1 32) : (GD.operandIdx j idx 0).val = (j 0).val := by
  show GD.start j idx 0 + GD.batchCoord j 0 + GD.offCoord j 0 = (j 0).val
  rw [GatherDims.batchCoord_eq_zero _ _ _ (by decide)]
  unfold GatherDims.start GatherDims.offCoord
  rw [dif_neg (by decide), dif_pos (by decide)]
  show 0 + 0 + (j 0).val = (j 0).val
  omega

/-- On operand axis 1 the gather reads the result's coordinate 1. -/
theorem gd_axis1 (j : S16x49284x3x45.Idx) (idx : IVec S45x1 32) : (GD.operandIdx j idx 1).val = (j 1).val := by
  show GD.start j idx 1 + GD.batchCoord j 1 + GD.offCoord j 1 = (j 1).val
  rw [GatherDims.batchCoord_eq_zero _ _ _ (by decide)]
  unfold GatherDims.start GatherDims.offCoord
  rw [dif_neg (by decide), dif_pos (by decide)]
  show 0 + 0 + (j 1).val = (j 1).val
  omega

/-- On operand axis 2 the gather reads the result's coordinate 2. -/
theorem gd_axis2 (j : S16x49284x3x45.Idx) (idx : IVec S45x1 32) : (GD.operandIdx j idx 2).val = (j 2).val := by
  show GD.start j idx 2 + GD.batchCoord j 2 + GD.offCoord j 2 = (j 2).val
  rw [GatherDims.batchCoord_eq_zero _ _ _ (by decide)]
  unfold GatherDims.start GatherDims.offCoord
  rw [dif_neg (by decide), dif_pos (by decide)]
  show 0 + 0 + (j 2).val = (j 2).val
  omega

/-- On operand axis 3 the gather reads the start index, signed and clamped into 0 … 8. -/
theorem gd_axis3 (j : S16x49284x3x45.Idx) (idx : IVec S45x1 32) :
    (GD.operandIdx j idx 3).val = min (idx (ix2 (n0 := 45) (n1 := 1) (j 3) 0)).toInt.toNat 8 := by
  show GD.start j idx 3 + GD.batchCoord j 3 + GD.offCoord j 3 = _
  rw [GatherDims.batchCoord_eq_zero _ _ _ (by decide), GatherDims.offCoord_eq_zero _ _ _ (by decide)]
  unfold GatherDims.start
  rw [dif_pos (by decide), gd_siIdx]
  rfl

/-- The gathered patches at (b, l, c, p) are the patches at (b, l, c, K), K the p-th start index read signed and
    clamped into 0 … 8. -/
theorem gathered_apply (x : FVec Ideal S16x3x224x224 .f32) (v : IVec S45 32) (b : Fin 16) (l : Fin 49284) (c : Fin 3) (p : Fin 45) :
    gathered x v (ix4 b l c p)
      = patches x (ix4 b l c (⟨min (wrapIdx v (ix2 p (0 : Fin 1))).toInt.toNat 8, by omega⟩ : Fin 9)) := by
  unfold gathered Host.gather
  refine congrArg (patches x) (funext fun a => Fin.ext ?_)
  match a with
  | ⟨0, _⟩ => exact gd_axis0 _ _
  | ⟨1, _⟩ => exact gd_axis1 _ _
  | ⟨2, _⟩ => exact gd_axis2 _ _
  | ⟨3, _⟩ => exact gd_axis3 _ _

/-! ## The pair table -/

/-- Column dz of the pair table at row p is entry 2 p + dz of the literal. -/
theorem pair_entry (dz : Nat) (hdz : dz < 2) (hs : S45x2.Slices ![0, dz] S45x1) (p : Fin 45) :
    shapeCast S45 (extractStridedSlice S45x1 ![0, dz] pairTable hs) shapeCasts_S45x1_S45 (ix1 p)
      = lit0 (⟨2 * p.val + dz, by have := p.isLt; omega⟩ : Fin 90) := by
  refine (shapeCast_apply _ _ (ix1 p) (ix2 p (0 : Fin 1)) ?_).trans ?_
  · rw [Shape.rowMajor_val_two, Shape.rowMajor_val_one]
    show p.val * 1 + 0 = p.val
    omega
  refine (extractStridedSlice_apply _ _ hs (ix2 p (0 : Fin 1)) (ix2 p (⟨dz, hdz⟩ : Fin 2)) (fun a => ?_)).trans ?_
  · match a with
    | ⟨0, _⟩ => show p.val = 0 + p.val; omega
    | ⟨1, _⟩ => show dz = dz + 0; omega
  show lit0 (S45x2.rowMajor (ix2 p (⟨dz, hdz⟩ : Fin 2))) = _
  refine congrArg lit0 (Fin.ext ?_)
  rw [Shape.rowMajor_val_two]
  show p.val * 2 + dz = 2 * p.val + dz
  omega

/-- The first column of the pair table holds the first members of the pairs. -/
theorem col0_val (p : Fin 45) : col0 (ix1 p) = BitVec.ofNat 32 (Cert.Spec.posA p).val := by
  unfold col0
  rw [pair_entry 0 (by omega)]
  fin_cases p <;> rfl

/-- The second column of the pair table holds the second members of the pairs. -/
theorem col1_val (p : Fin 45) : col1 (ix1 p) = BitVec.ofNat 32 (Cert.Spec.posB p).val := by
  unfold col1
  rw [pair_entry 1 (by omega)]
  fin_cases p <;> rfl

/-- The wrapped start index of pair p: the entry itself, or the entry plus nine when it is negative. -/
theorem wrapIdx_apply (v : IVec S45 32) (p : Fin 45) (z : Fin 1) :
    wrapIdx v (ix2 p z)
      = Scalar.select (IntOp.cmpi .slt (v (ix1 p)) 0#32) (IntOp.addi (v (ix1 p)) 9#32) (v (ix1 p)) := by
  unfold wrapIdx
  refine (broadcastInDim_apply _ _ _ (ix2 p z) (ix1 p) (fun a => match a with | ⟨0, _⟩ => rfl)).trans ?_
  rfl

/-- An entry n < 9 is not negative, so it is not wrapped, and the clamp into 0 … 8 leaves it. -/
theorem wrap_small (n : Nat) (hn : n < 9) :
    min (Scalar.select (IntOp.cmpi .slt (BitVec.ofNat 32 n) 0#32) (IntOp.addi (BitVec.ofNat 32 n) 9#32)
      (BitVec.ofNat 32 n)).toInt.toNat 8 = n := by
  interval_cases n <;> decide

/-- Gathered by the first column, pair p reads window position posA p. -/
theorem gathered_col0 (x : FVec Ideal S16x3x224x224 .f32) (b : Fin 16) (l : Fin 49284) (c : Fin 3) (p : Fin 45) :
    gathered x col0 (ix4 b l c p) = patches x (ix4 b l c (Cert.Spec.posA p)) := by
  refine (gathered_apply x col0 b l c p).trans (congrArg (fun k => patches x (ix4 b l c k)) (Fin.ext ?_))
  show min (wrapIdx col0 (ix2 p (0 : Fin 1))).toInt.toNat 8 = (Cert.Spec.posA p).val
  rw [wrapIdx_apply, col0_val]
  exact wrap_small _ (Cert.Spec.posA p).isLt

/-- Gathered by the second column, pair p reads window position posB p. -/
theorem gathered_col1 (x : FVec Ideal S16x3x224x224 .f32) (b : Fin 16) (l : Fin 49284) (c : Fin 3) (p : Fin 45) :
    gathered x col1 (ix4 b l c p) = patches x (ix4 b l c (Cert.Spec.posB p)) := by
  refine (gathered_apply x col1 b l c p).trans (congrArg (fun k => patches x (ix4 b l c k)) (Fin.ext ?_))
  show min (wrapIdx col1 (ix2 p (0 : Fin 1))).toInt.toNat 8 = (Cert.Spec.posB p).val
  rw [wrapIdx_apply, col1_val]
  exact wrap_small _ (Cert.Spec.posB p).isLt

/-! ## Features, contraction, result -/

/-- Feature f = 45 c + p of pixel l is the product of the two gathered reads at channel c, pair p. -/
theorem features_apply (x : FVec Ideal S16x3x224x224 .f32) (b : Fin 16) (l : Fin 49284) (f : Fin 135) :
    features x (ix3 b l f)
      = gathered x col0 (ix4 b l (Cert.Spec.chan f) (Cert.Spec.pair f))
        * gathered x col1 (ix4 b l (Cert.Spec.chan f) (Cert.Spec.pair f)) := by
  unfold features
  refine (shapeCast_apply _ _ (ix3 b l f) (ix4 b l (Cert.Spec.chan f) (Cert.Spec.pair f)) ?_).trans ?_
  · rw [Shape.rowMajor_val_four, Shape.rowMajor_val_three]
    show ((b.val * 49284 + l.val) * 3 + f.val / 45) * 45 + f.val % 45 = (b.val * 49284 + l.val) * 135 + f.val
    omega
  exact mulf_apply _ _ _

/-- The left operand's axis 0 is free: it reads the result's coordinate 0. -/
theorem lhs_dot_S64x135_S16x49284x135_S64x16x49284_1_2_0_01_n_n_0 (j : S64x16x49284.Idx)
    (k : dot_S64x135_S16x49284x135_S64x16x49284_1_2_0_01_n_n.contr.Idx) :
    (dot_S64x135_S16x49284x135_S64x16x49284_1_2_0_01_n_n.lhsIdx j k 0).val = (j 0).val := rfl

/-- The left operand's axis 1 is the contracted one. -/
theorem lhs_dot_S64x135_S16x49284x135_S64x16x49284_1_2_0_01_n_n_1 (j : S64x16x49284.Idx)
    (k : dot_S64x135_S16x49284x135_S64x16x49284_1_2_0_01_n_n.contr.Idx) :
    (dot_S64x135_S16x49284x135_S64x16x49284_1_2_0_01_n_n.lhsIdx j k 1).val = (k ⟨0, by decide⟩).val :=
  DotDims.lhsIdx_val_of_single _ rfl j k

/-- The right operand's axis 0 is free: it reads the result's coordinate 1. -/
theorem rhs_dot_S64x135_S16x49284x135_S64x16x49284_1_2_0_01_n_n_0 (j : S64x16x49284.Idx)
    (k : dot_S64x135_S16x49284x135_S64x16x49284_1_2_0_01_n_n.contr.Idx) :
    (dot_S64x135_S16x49284x135_S64x16x49284_1_2_0_01_n_n.rhsIdx j k 0).val = (j 1).val := rfl

/-- The right operand's axis 1 is free: it reads the result's coordinate 2. -/
theorem rhs_dot_S64x135_S16x49284x135_S64x16x49284_1_2_0_01_n_n_1 (j : S64x16x49284.Idx)
    (k : dot_S64x135_S16x49284x135_S64x16x49284_1_2_0_01_n_n.contr.Idx) :
    (dot_S64x135_S16x49284x135_S64x16x49284_1_2_0_01_n_n.rhsIdx j k 1).val = (j 2).val := rfl

/-- The right operand's axis 2 is the contracted one. -/
theorem rhs_dot_S64x135_S16x49284x135_S64x16x49284_1_2_0_01_n_n_2 (j : S64x16x49284.Idx)
    (k : dot_S64x135_S16x49284x135_S64x16x49284_1_2_0_01_n_n.contr.Idx) :
    (dot_S64x135_S16x49284x135_S64x16x49284_1_2_0_01_n_n.rhsIdx j k 2).val = (k ⟨0, by decide⟩).val :=
  DotDims.rhsIdx_val_of_single _ rfl j k

/-- The contraction at (o, b, l) is the sum over the 135 features of weight times feature. -/
theorem contracted_apply (x : FVec Ideal S16x3x224x224 .f32) (wt : FVec Ideal S64x135 .f32) (o : Fin 64) (b : Fin 16) (l : Fin 49284) :
    contracted x wt (ix3 o b l) = ∑ f : Fin 135, wt (ix2 o f) * features x (ix3 b l f) := by
  unfold contracted
  show FloatOps.dotGeneral dot_S64x135_S16x49284x135_S64x16x49284_1_2_0_01_n_n none _ wt (features x) (ix3 o b l) = _
  rw [Ideal.dotGeneral_apply,
    ← Equiv.sum_comp (contrEquiv1 dot_S64x135_S16x49284x135_S64x16x49284_1_2_0_01_n_n 135 rfl rfl).symm]
  refine Finset.sum_congr rfl fun f _ => ?_
  have c3 := contrEquiv1_symm_val dot_S64x135_S16x49284x135_S64x16x49284_1_2_0_01_n_n 135 rfl rfl f
  have l2 : dot_S64x135_S16x49284x135_S64x16x49284_1_2_0_01_n_n.lhsIdx (ix3 o b l)
      ((contrEquiv1 dot_S64x135_S16x49284x135_S64x16x49284_1_2_0_01_n_n 135 rfl rfl).symm f) = ix2 o f := by
    funext ax; apply Fin.ext
    match ax with
    | ⟨0, _⟩ => exact lhs_dot_S64x135_S16x49284x135_S64x16x49284_1_2_0_01_n_n_0 _ _
    | ⟨1, _⟩ => exact (lhs_dot_S64x135_S16x49284x135_S64x16x49284_1_2_0_01_n_n_1 _ _).trans c3
  have r3 : dot_S64x135_S16x49284x135_S64x16x49284_1_2_0_01_n_n.rhsIdx (ix3 o b l)
      ((contrEquiv1 dot_S64x135_S16x49284x135_S64x16x49284_1_2_0_01_n_n 135 rfl rfl).symm f) = ix3 b l f := by
    funext ax; apply Fin.ext
    match ax with
    | ⟨0, _⟩ => exact rhs_dot_S64x135_S16x49284x135_S64x16x49284_1_2_0_01_n_n_0 _ _
    | ⟨1, _⟩ => exact rhs_dot_S64x135_S16x49284x135_S64x16x49284_1_2_0_01_n_n_1 _ _
    | ⟨2, _⟩ => exact (rhs_dot_S64x135_S16x49284x135_S64x16x49284_1_2_0_01_n_n_2 _ _).trans c3
  rw [l2, r3]

/-- The result at (b, o, h, w) is the contraction at (o, b, h · 222 + w). -/
theorem result_apply (x : FVec Ideal S16x3x224x224 .f32) (wt : FVec Ideal S64x135 .f32) (b : Fin 16) (o : Fin 64) (h w : Fin 222) :
    result x wt (ix4 b o h w) = contracted x wt (ix3 o b (pix h w)) := by
  unfold result
  refine (shapeCast_apply _ _ (ix4 b o h w) (ix3 b o (pix h w)) ?_).trans ?_
  · rw [Shape.rowMajor_val_three, Shape.rowMajor_val_four]
    show (b.val * 64 + o.val) * 49284 + (h.val * 222 + w.val) = ((b.val * 64 + o.val) * 222 + h.val) * 222 + w.val
    omega
  exact transpose_apply _ _ _ _ _ (fun a => match a with | ⟨0, _⟩ => rfl | ⟨1, _⟩ => rfl | ⟨2, _⟩ => rfl)

end Value

open Value in
theorem result_eq (x : FVec Ideal S16x3x224x224 .f32) (wt : FVec Ideal S64x135 .f32) :
    result (F := Ideal) x wt = Cert.Spec.G x wt := by
  funext i
  obtain ⟨b, o, h, w, rfl⟩ : ∃ (b : Fin 16) (o : Fin 64) (h w : Fin 222), i = ix4 b o h w :=
    ⟨i 0, i 1, i 2, i 3, eq_ix4 i⟩
  rw [Cert.Spec.G_ix, result_apply, contracted_apply]
  unfold Cert.Spec.outAt Cert.Spec.feat
  refine Finset.sum_congr rfl fun f _ => ?_
  rw [features_apply, gathered_col0, gathered_col1, patches_apply, patches_apply]

end Cert.RefSide

end
-- ==== Proof.lean ====
/-
  Kernel and reference compute one function of the image batch and the weights: at every output pixel the weighted sum,
  over three channels and the 45 unordered pairs of positions of a 3×3 window, of the product of the two image entries
  under the pair (Proof/Spec.lean). The kernel reaches it tile by tile from the zero-padded image (Proof/KernelBody.lean,
  Proof/KernelValue.lean); the reference from nine shifted windows, two gathers along the position axis and one
  contraction (Proof/RefTerm.lean, Proof/RefRun.lean, Proof/RefValue.lean). Both sum the same products in the same order,
  so no law of the extended reals beyond equality of the terms is used, and the finiteness precondition is not opened.
-/
import proofs.«127827_j56427280335471_1_alg».proof.Defs
import proofs.«127827_j56427280335471_1_alg».proof.Proof.Gen.Kernel
import proofs.«127827_j56427280335471_1_alg».proof.Proof.Gen.Kernel.Skeleton
import proofs.«127827_j56427280335471_1_alg».proof.Proof.Gen.Kernel.Launch
import proofs.«127827_j56427280335471_1_alg».proof.Proof.Gen.Kernel.Points
import proofs.«127827_j56427280335471_1_alg».proof.Proof.Gen.Kernel.Frame
import proofs.«127827_j56427280335471_1_alg».proof.Proof.Gen.KernelIdeal
import proofs.«127827_j56427280335471_1_alg».proof.Proof.Gen.KernelIdeal.Skeleton
import proofs.«127827_j56427280335471_1_alg».proof.Proof.Gen.KernelIdeal.Launch
import proofs.«127827_j56427280335471_1_alg».proof.Proof.Gen.KernelIdeal.Points
import proofs.«127827_j56427280335471_1_alg».proof.Proof.Gen.KernelIdeal.Frame
import proofs.«127827_j56427280335471_1_alg».proof.Proof.Gen.ReferenceIdeal
import proofs.«127827_j56427280335471_1_alg».proof.Proof.Gen.Pre_finite_inputs
import proofs.«127827_j56427280335471_1_alg».proof.Proof.KernelValue
import proofs.«127827_j56427280335471_1_alg».proof.Proof.RefRun
import proofs.«127827_j56427280335471_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result forgotten. -/
theorem frame_ri : Cert.frame_ReferenceIdeal := fun m ρ _ =>
  (θ_run Cert.ReferenceIdeal.defs _ _).mono (fun _ h c => (h c).2) (Cert.RefSide.run (F := Ideal) m ρ)

/-- Both runs end at the specification of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KerSide.kernel_run m ρ, ?_⟩
  refine (θ_run Cert.ReferenceIdeal.defs _ _).mono (fun _ h c => ⟨(h c).1.trans ?_, (h c).2⟩)
    (Cert.RefSide.run (F := Ideal) m' ρ')
  rw [(hagree c).1, (hagree c).2]
  exact Cert.RefSide.result_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
